-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x2048 : Shape := ⟨2, ![1024, 2048]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S4096x1, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .i1⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S4096x2048_S4096_d1 : S4096x2048.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .i32 = 32 ∨ (Rect.block (s := S1x4096) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S2048x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .i1⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_call1_cst : Ref sig .tc := ⟨.hbm, 50, rfl⟩
abbrev main_call1_v0 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Base.lean ====
/-
  The pieces every later module is stated over, for the one kernel of this program: the contents the region is
  entered at (after the eight host operations before it), the windows' blocks read off those contents, the two
  conditions of the body's branches decided over the sixteen grid points (the reduction axis is the inner one: the
  accumulators are reset where the inner coordinate is 0 and written out where it is 3), where the two output
  windows are idle, and names for the staging and scratch memrefs the body is called with.
-/
import proofs.«177782_j12764642804226_1_alg».proof.Proof.Gen.Kernel.Launch
import proofs.«177782_j12764642804226_1_alg».proof.Proof.Gen.Kernel.Skeleton
import proofs.«177782_j12764642804226_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host operations before the region, the region, and the host operations after it: it reduces to
    the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument array. -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the accumulators' reset): taken where the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the accumulators written to the outputs): taken where the inner grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second branch is not taken the body stores nothing into output 6, and its block is not written back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Where the second branch is not taken the body stores nothing into output 7, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The two scratch accumulators (running maximum, running minimum), whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/-
  The kernel body at a point where the first branch is taken and the second is not (inner grid coordinate 0): it
  resets both accumulators (whatever they held), then stores into each its update over the reset value, and leaves
  the output buffers untouched.
-/
import proofs.«177782_j12764642804226_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a reset point: the accumulators may hold anything on entry; each ends with the run's pieces. -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.Kernel.Hand

end
-- ==== Proof.K.RunB.lean ====
/-
  The kernel body at a point where neither branch is taken (inner grid coordinate 1 or 2): from the six input blocks
  and the two accumulators at what the point before left, it stores into each accumulator its update (running
  maximum, running minimum) and leaves the output buffers untouched. The executor steps the body; the pieces each
  accumulator ends with are found by the run.
-/
import proofs.«177782_j12764642804226_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where neither branch is taken: the inputs and the (idle) outputs come back as they were, each
    accumulator with the run's pieces written. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.Kernel.Hand

end
-- ==== Proof.K.RunC.lean ====
/-
  The kernel body at a point where the second branch is taken and the first is not (inner grid coordinate 3): it
  updates both accumulators over what the point before left and then copies each into its output buffer
  (whatever that held).
-/
import proofs.«177782_j12764642804226_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point that writes the outputs: each output buffer and each accumulator ends with the run's pieces. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [HS0]
    · iexists _; iexact HS0
    iexists _; iexact HS1

end Cert.Kernel.Hand

end
-- ==== Proof.K.Frame.lean ====
/-
  What the two accumulators and the two output buffers hold after each of the sixteen grid points, the proof data of
  the pipeline built on it, and the body's obligation at every point.

  The grid is 4 × 4 with the reduction axis inner: point t has inner coordinate t mod 4. Where it is 0 the body
  resets the running maximum and minimum and takes in the first tile of columns; where it is 1 or 2 it takes in the
  next tile over what the point before left; where it is 3 it takes in the last tile and copies both accumulators to
  the output buffers, which the pipeline writes back to rows 1024·(t div 4) … of the two result arrays. Windows 0 and
  1 read the same array (the rows of the point's row tile, and those of its column tile), each holding half of it.
-/
import proofs.«177782_j12764642804226_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The run's pieces for the first accumulator tile it, so they cover it. -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- The run's pieces for the second accumulator tile it, so they cover it. -/
theorem scover0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What this case leaves in the first accumulator: its pieces read back. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- What this case leaves in the second accumulator: its pieces read back. -/
def sout0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- The run's pieces for the first accumulator tile it, so they cover it. -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- The run's pieces for the second accumulator tile it, so they cover it. -/
theorem scover0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What this case leaves in the first accumulator: its pieces read back. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- What this case leaves in the second accumulator: its pieces read back. -/
def sout0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- The run's pieces for the first output buffer tile it, so they cover it. -/
theorem cover0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- The run's pieces for the second output buffer tile it, so they cover it. -/
theorem cover0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- The run's pieces for the first accumulator tile it, so they cover it. -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- The run's pieces for the second accumulator tile it, so they cover it. -/
theorem scover0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What this case leaves in the first output buffer: its pieces read back. -/
def out0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- What this case leaves in the second output buffer: its pieces read back. -/
def out0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What this case leaves in the first accumulator: its pieces read back. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What this case leaves in the second accumulator: its pieces read back. -/
def sout0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## Point by point -/

/-- What the two output buffers and the two accumulators hold after a point. -/
abbrev St (F : FTy → Type) [FloatOps F] : Type := Vec F S1024x1 .f32 × Vec F S1024x1 .f32 × Vec F S1024x1 .f32 × Vec F S1024x1 .f32

/-- A placeholder for an output buffer at a point where the body stores nothing into it; nothing reads it. -/
def idle6 : Vec F S1024x1 .f32 := VO0_6.read (Elt F) VO0_6.junk
def idle7 : Vec F S1024x1 .f32 := VO0_7.read (Elt F) VO0_7.junk

/-- After a reset point. -/
def stA (c : Dev nD) (t : Fin cfg0.N) (h0 : t.val % 4 = 0) : St F :=
  (idle6, idle7,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t))

/-- After a middle point, over what the point before left in the accumulators. -/
def stB (c : Dev nD) (t : Fin cfg0.N) (h0 : ¬t.val % 4 = 0) (h1 : ¬t.val % 4 = 3) (xs0 xs1 : Vec F S1024x1 .f32) : St F :=
  (idle6, idle7,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1)

/-- After a point that writes the outputs. -/
def stC (c : Dev nD) (t : Fin cfg0.N) (h0 : ¬t.val % 4 = 0) (h1 : t.val % 4 = 3) (xs0 xs1 : Vec F S1024x1 .f32) : St F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1)

/-- The accumulation: the state after position `n`, by the case of `n mod 4`, over the state after `n - 1`. -/
def outsAt0 (c : Dev nD) : (n : ℕ) → n < cfg0.N → St F
  | 0, hn => stA m c ⟨0, hn⟩ (Nat.zero_mod _)
  | n + 1, hn =>
    if h0 : (n + 1) % 4 = 0 then stA m c ⟨n + 1, hn⟩ h0
    else if h1 : (n + 1) % 4 = 3 then
      stC m c ⟨n + 1, hn⟩ h0 h1 (outsAt0 c n (Nat.lt_of_succ_lt hn)).2.2.1 (outsAt0 c n (Nat.lt_of_succ_lt hn)).2.2.2
    else
      stB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 4 = 0) : outsAt0 m c t.val t.isLt = stA m c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 m c t.val t.isLt = stB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: before the first point whatever the launch hands over; afterwards the
    two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block
    and the outputs' at the accumulation's components; the invariant above; nothing owed; the array the first two
    windows share held half by each, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point. The inputs' buffers hold their blocks; `t mod 4` says which case the point is in; the
    invariant hands the run the accumulators (at anything before the first point, else at what the point before
    left) and takes them back at this point's contents, by the covers; an output buffer the case does not store into
    is handed back as found; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  obtain ⟨hl0, hl1, hl2, hl3, hl4, hl5⟩ := leaves0_in m c t
  rw [hl0, hl1, hl2, hl3, hl4, hl5]
  have hN : t.val < 16 := lt_of_lt_of_eq t.isLt (show cfg0.N = 16 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 6 t (idleAt0_6 t hc1) (noFlush0_6 t hc1),
      Dat.leavesExact_idle (dats m 0 c) 7 t (idleAt0_7 t hc1) (noFlush0_7 t hc1)]
    rw [outsAt0_A m c t h0]
    unfold stA sout0_A_0 sout0_A_1; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 6 t = owns (c : Thread nD τ) (ms0_6 t) fullShare ((dats m 0 c).after 6 t) from by
        unfold Dat.leavesExact; rw [liveAt0_6 t hc1], after0_6]
      rw [show (dats m 0 c).leavesExact 7 t = owns (c : Thread nD τ) (ms0_7 t) fullShare ((dats m 0 c).after 7 t) from by
        unfold Dat.leavesExact; rw [liveAt0_7 t hc1], after0_7]
      rw [outsAt0_C m c t h0 h1]
      unfold stC out0_C_6 out0_C_7 sout0_C_0 sout0_C_1; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dats m 0 c) 6 t (idleAt0_6 t hc1) (noFlush0_6 t hc1),
        Dat.leavesExact_idle (dats m 0 c) 7 t (idleAt0_7 t hc1) (noFlush0_7 t hc1)]
      rw [outsAt0_B m c t h0 h1]
      unfold stB sout0_B_0 sout0_B_1; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-- The shares: the array windows 0 and 1 both read is held half by each; every other input whole. -/
theorem q0 (c : Dev nD) : (dats m 0 c).q 0 = fullShare.left := rfl
theorem q1 (c : Dev nD) : (dats m 0 c).q 1 = fullShare.right := rfl
theorem q_ge (c : Dev nD) (w : Fin cfg0.W) (h : 2 ≤ w.val) : (dats m 0 c).q w = fullShare := by
  match w, h with
  | ⟨0, _⟩, h => exact absurd h (by simp)
  | ⟨1, _⟩, h => exact absurd h (by simp)
  | ⟨_ + 2, _⟩, _ => rfl

end Cert.Kernel.Hand

end
-- ==== Proof.K.Launch.lean ====
/-
  The launch of the one kernel of this program, whose first two windows read the SAME array: the core's unscoped
  buffers are split into the seven distinct buffers behind the eight windows and the rest; the shared buffer's full
  share is halved between its two windows on the way in and rejoined on the way out; the host operations after the
  region run within all the unscoped buffers at once, from the contents the region leaves (the entry contents with
  the two output arrays at what the pipeline wrote back).
-/
import proofs.«177782_j12764642804226_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The seven buffers behind the eight windows -/

/-- The distinct buffers behind the windows' arrays, one by one. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v0, main_v3, main_v4, main_v5, main_v6, main_v7_0, main_v7_1] (by decide) (by decide) _

/-- Window `w`'s array is a whole buffer: the pipeline's points-to of it, at the share the core holds it at. -/
theorem arr_pt {c : Dev nD} (dat : Dat τ (Elt F) Unit ℕ (UR sig nD τ) ℕ cfg0 c) (w : Fin cfg0.W) (q : PosShare TreeShare)
    (hs : dat.share w = q) (G : (w : Fin cfg0.W) → Buf (Elt F) ((cfg0.win w).arr.view.loc (c : Thread nD τ))) :
    ((cfg0.win w).arr.view.loc (c : Thread nD τ) ↦[(cfg0.win w).arr.view.set]{dat.share w} G w : sProp 𝕄)
      = (((c : Thread nD τ).loc (Pipeline.arrRef spec0 w)) ↦{q} G w) := by
  rw [(arr_whole0 w).set_eq_univ, hs]

/-- The pipeline's arrays window by window: the two windows on the shared buffer hold its two half shares, every
    other window its buffer whole. -/
theorem arrays0_eq {c : Dev nD} (dat : Dat τ (Elt F) Unit ℕ (UR sig nD τ) ℕ cfg0 c)
    (hq0 : dat.q 0 = fullShare.left) (hq1 : dat.q 1 = fullShare.right) (hq : ∀ w : Fin cfg0.W, 2 ≤ w.val → dat.q w = fullShare)
    (G : (w : Fin cfg0.W) → Buf (Elt F) ((cfg0.win w).arr.view.loc (c : Thread nD τ))) :
    (dat.arrays G : sProp 𝕄)
      = iprop((((c : Thread nD τ).loc main_v0) ↦{fullShare.left} G 0) ∗ (((c : Thread nD τ).loc main_v0) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4) ∗ (((c : Thread nD τ).loc main_v6) ↦{fullShare} G 5)
          ∗ (((c : Thread nD τ).loc main_v7_0) ↦{fullShare} G 6) ∗ (((c : Thread nD τ).loc main_v7_1) ↦{fullShare} G 7)) := by
  unfold Dat.arrays
  refine (bigSep_W0 _).trans ?_
  exact congrArg₂ _ (arr_pt dat 0 _ hq0 G) (congrArg₂ _ (arr_pt dat 1 _ hq1 G) (congrArg₂ _ (arr_pt dat 2 _ (hq 2 (by decide)) G)
    (congrArg₂ _ (arr_pt dat 3 _ (hq 3 (by decide)) G) (congrArg₂ _ (arr_pt dat 4 _ (hq 4 (by decide)) G)
    (congrArg₂ _ (arr_pt dat 5 _ (hq 5 (by decide)) G) (congrArg₂ _ (arr_pt dat 6 _ rfl G) (arr_pt dat 7 _ rfl G)))))))

/-- The pipeline's arrays at contents read off `W` are the buffers behind them at `W`: the shared buffer's two
    half shares make its full share, and back. -/
theorem arrays_arrBufs {c : Dev nD} (dat : Dat τ (Elt F) Unit ℕ (UR sig nD τ) ℕ cfg0 c)
    (hq0 : dat.q 0 = fullShare.left) (hq1 : dat.q 1 = fullShare.right) (hq : ∀ w : Fin cfg0.W, 2 ≤ w.val → dat.q w = fullShare)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat.arrays G : sProp 𝕄) = Pipeline.arrBufs spec0 c W := by
  rw [arrays0_eq dat hq0 hq1 hq G, arrBufs0_eq c W, hG 0, hG 1, hG 2, hG 3, hG 4, hG 5, hG 6, hG 7]
  refine BI.Entails.antisymm (show (_ : sProp 𝕄) ⊢ _ from ?_) (show (_ : sProp 𝕄) ⊢ _ from ?_)
  · iintro ⟨H0, H1, HR⟩
    isplitl [H0 H1]
    · iapply (pointsTo_share (PosShare.mem_left_op_right fullShare)).2
      isplitl [H0] <;> iassumption
    · iexact HR
  · iintro ⟨H0, HR⟩
    ihave H := (pointsTo_share (PosShare.mem_left_op_right fullShare)).1 $$ H0
    icases H with ⟨H0, H1⟩
    isplitl [H0]; · iexact H0
    isplitl [H1]; · iexact H1
    iexact HR

/-! ## The contents at the region's exit -/

/-- The contents at the region's exit: the entry contents with the two output arrays at what the pipeline wrote back. -/
def exitVal (dats : (p : Fin 1) → (c : Dev nD) → Dat τ (Elt F) Unit ℕ (UR sig nD τ) ℕ (cfgs p) c) (c : Dev nD) : Valuation τ sig (Elt F) :=
  Function.update (Function.update (V0 m c) (Proc.devRef .tc main_v7_0) ((dats 0 c).arrAt 6 cfg0.N))
    (Proc.devRef .tc main_v7_1) ((dats 0 c).arrAt 7 cfg0.N)

theorem exitVal_out6 (dats : (p : Fin 1) → (c : Dev nD) → Dat τ (Elt F) Unit ℕ (UR sig nD τ) ℕ (cfgs p) c) (c : Dev nD) :
    exitVal m dats c (Proc.devRef .tc main_v7_0) = (dats 0 c).arrAt 6 cfg0.N := by
  unfold exitVal
  rw [Function.update_of_ne (StableHlo.devRef_ne_of_ne (by decide)), Function.update_self]

theorem exitVal_out7 (dats : (p : Fin 1) → (c : Dev nD) → Dat τ (Elt F) Unit ℕ (UR sig nD τ) ℕ (cfgs p) c) (c : Dev nD) :
    exitVal m dats c (Proc.devRef .tc main_v7_1) = (dats 0 c).arrAt 7 cfg0.N := by
  unfold exitVal
  rw [Function.update_self]

theorem exitVal_of_ne (dats : (p : Fin 1) → (c : Dev nD) → Dat τ (Elt F) Unit ℕ (UR sig nD τ) ℕ (cfgs p) c) (c : Dev nD)
    (b : Ref sig .tc) (h6 : b ≠ main_v7_0) (h7 : b ≠ main_v7_1) :
    exitVal m dats c (Proc.devRef .tc b) = V0 m c (Proc.devRef .tc b) := by
  unfold exitVal
  rw [Function.update_of_ne (StableHlo.devRef_ne_of_ne h7), Function.update_of_ne (StableHlo.devRef_ne_of_ne h6)]

/-- Every window's array at the region's exit is what the exit contents hold at it: an input array is never written
    and stays at the entry contents, an output array is at what the pipeline wrote back. -/
theorem arrAt_exit (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) :
    (dats 0 c).arrAt w cfg0.N = exitVal m dats c (Proc.devRef .tc (Pipeline.arrRef spec0 w)) := by
  have h : ∀ w : Fin 8, ((cfg0.win w).isOut = false ∧ Pipeline.arrRef spec0 w ≠ main_v7_0 ∧ Pipeline.arrRef spec0 w ≠ main_v7_1) ∨ w = 6 ∨ w = 7 := by decide
  rcases h w with ⟨hi, h6, h7⟩ | rfl | rfl
  · rw [(dats 0 c).arrAt_in w hi, hA c w, exitVal_of_ne m dats c _ h6 h7]
  · exact (exitVal_out6 m dats c).symm
  · exact (exitVal_out7 m dats c).symm

/-- The buffers that bypass the region hold at its exit what they held at its entry. -/
theorem unscopedRest_exit (dats : (p : Fin 1) → (c : Dev nD) → Dat τ (Elt F) Unit ℕ (UR sig nD τ) ℕ (cfgs p) c) (c : Dev nD) :
    (Pipeline.unscopedRest spec0 c (fun b => exitVal m dats c (Proc.devRef .tc b)) : sProp 𝕄) = Pipeline.unscopedRest spec0 c (V m c) := by
  unfold Pipeline.unscopedRest
  exact bigSep_congr fun b hb => by
    beta_reduce
    rw [exitVal_of_ne m dats c b
      (fun e => (Finset.mem_sdiff.mp hb).2 (Finset.mem_image.mpr ⟨6, Finset.mem_univ _, e.symm⟩))
      (fun e => (Finset.mem_sdiff.mp hb).2 (Finset.mem_image.mpr ⟨7, Finset.mem_univ _, e.symm⟩))]

/-! ## The host operations after the region -/

/-- The references the later host operations write. -/
abbrev wr1 : List (Ref sig .tc) :=
  [main_v8, main_v9, main_v10, main_cst_0, main_v11, main_v12, main_cst_1, main_v13, main_v14, main_cst_2, main_v15, main_cst_3,
    main_v16, main_v17, main_v18, main_cst_4, main_v19, main_cst_5, main_v20]

theorem hostOps1_writes : (hostOps1 : List (HloOp τ sig (Elt F))).Forall fun op => op.writes ⊆ (wr1.map (Proc.devRef (τ := τ) .tc)).toFinset := by
  refine ⟨?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A reference none of them writes keeps its contents. -/
theorem after1_keeps (X : Valuation τ sig (Elt F)) (b : Ref sig .tc) (hb : b ∉ wr1) :
    StableHlo.after hostOps1 X (Proc.devRef .tc b) = X (Proc.devRef .tc b) :=
  StableHlo.after_of_writes_sub hostOps1 X hostOps1_writes hb

/-- No window's array is written after the region. -/
theorem arr_not_written : ∀ w : Fin 8, Pipeline.arrRef spec0 w ∉ wr1 := by decide

/-- All the core's unscoped buffers, held at contents `X` that agree with the pipeline's arrays after `n` points, are
    the pipeline's arrays and the buffers that bypass the region at `X`. -/
theorem held_arrays (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin cfg0.W), 2 ≤ w.val → (dats 0 c).q w = fullShare)
    (c : Dev nD) (X : Valuation τ sig (Elt F)) (n : ℕ)
    (hX : ∀ w, (dats 0 c).arrAt w n = X (Proc.devRef .tc (Pipeline.arrRef spec0 w))) :
    (StableHlo.held (c : Thread nD τ) (Pipeline.ucRefs τ sig) X : sProp 𝕄)
      = iprop((dats 0 c).arrays ((dats 0 c).arrAt · n) ∗ Pipeline.unscopedRest spec0 c (fun b => X (Proc.devRef .tc b))) := by
  have h1 : (StableHlo.held (c : Thread nD τ) (Pipeline.ucRefs τ sig) X : sProp 𝕄)
      = unscopedBufs c (fun b => X (Proc.devRef .tc b)) :=
    (Pipeline.unscopedBufs_held (Ix := Unit) (Name := ℕ) (U := UR sig nD τ) (Lvl := ℕ) c X).symm
  have h2 : (unscopedBufs c (fun b => X (Proc.devRef .tc b)) : sProp 𝕄)
      = iprop(Pipeline.arrBufs spec0 c (fun b => X (Proc.devRef .tc b)) ∗ Pipeline.unscopedRest spec0 c (fun b => X (Proc.devRef .tc b))) :=
    Pipeline.unscopedBufs_split₀ cfgs (0 : Fin 1) winFacts₀0.arr_unscoped c _
  rw [h1, h2, arrays_arrBufs (dats 0 c) (hq0 c) (hq1 c) (hq c) (fun b => X (Proc.devRef .tc b)) _ hX]

/-- THE LINES AFTER THE REGION: from the region's exit — the boundary, the pipeline's arrays as the pipeline leaves
    them, the bypassing buffers at the entry contents — the host operations run within all the unscoped buffers and hand
    back the arrays, which they do not write, and the bypassing buffers at what the operations compute from the exit
    contents. -/
theorem tail_run (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin cfg0.W), 2 ≤ w.val → (dats 0 c).q w = fullShare)
    (hA : ∀ c w, (dats 0 c).A w = V m c (Pipeline.arrRef spec0 w))
    (c : Dev nD) (Q' : PUnit → sProp 𝕄) :
    iprop((iprop((dats 0 c).arrays ((dats 0 c).arrAt · cfg0.N)
              ∗ Pipeline.unscopedRest spec0 c (fun b => StableHlo.after hostOps1 (exitVal m dats c) (Proc.devRef .tc b))) -∗ Q' ⟨⟩)
        ∗ boundary (c : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  rw [← unscopedRest_exit m dats c,
    ← held_arrays dats hq0 hq1 hq c (exitVal m dats c) cfg0.N (arrAt_exit m dats hA c),
    ← held_arrays dats hq0 hq1 hq c (StableHlo.after hostOps1 (exitVal m dats c)) cfg0.N
      (fun w => (arrAt_exit m dats hA c w).trans (after1_keeps _ _ (arr_not_written w)).symm),
    show Pipeline.chain [StableHlo.seq (hostOps1 (F := F))] = Pipeline.chain ([hostOps1].map StableHlo.seq ++ []) from rfl]
  iintro ⟨Hk, Hb⟩
  iapply (Pipeline.wp_seqs_then (pcfgs (F := F)) defs₀ Variants.none c (Pipeline.ucRefs τ sig) [] [hostOps1]
    (fun ops ho op h => Pipeline.sub_ucRefs op ((List.forall_iff_forall_mem.mp hostOps1_sub) op (List.mem_singleton.mp ho ▸ h)))
    (fun ops ho op h => (List.forall_iff_forall_mem.mp hostOps1_fresh) op (List.mem_singleton.mp ho ▸ h))
    (exitVal m dats c)) $$ Hb
  iintro Hb
  rw [Pipeline.chain_nil, wp_pure]
  imodintro
  iapply Hk
  icases Hb with ⟨-, H⟩
  iexact H

/-! ## The run -/

set_option backward.isDefEq.respectTransparency.types false in
/-- THE RUN of the program around its one region, for proof data whose first two windows hold the two halves of the
    shared array's full share: the two arguments end as they were launched, and the two results hold what the later
    host operations compute from the region's exit contents. -/
theorem run_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq : ∀ c (w : Fin cfg0.W), 2 ≤ w.val → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after hostOps1 (exitVal m dats c) (Proc.devRef .tc main_v16)
      ∧ r.2.mem ((c.tc : Thread nD τ).loc main_v20) = StableHlo.after hostOps1 (exitVal m dats c) (Proc.devRef .tc main_v20)) := by
  unfold defs
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_arrBufs (dats 0 c) (hq0 c) (hq1 c) (hq c) (V m c) _ (fun w => hA c w)).symm)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => StableHlo.after hostOps1 (exitVal m dats c) (Proc.devRef .tc b)))
    (hX := fun c => by
      rw [Pipeline.unscopedRestP_none]
      iintro ⟨HU, -, -, -, Hp, -⟩; imodintro
      isplitl [Hp]; · iexists _; iexact Hp
      iexact HU)
    (hin := fun c => (show (_ : sProp 𝕄) ⊢ Pipeline.ΦA spec0 c from by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq hA c Q')
    (QY := fun c s => ∀ b ∈ Pipeline.restRefs sig spec0,
      s.mem ((c.tc : Thread nD τ).loc b) = StableHlo.after hostOps1 (exitVal m dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (exitVal m dats c) (Proc.devRef .tc b)) s')
      isplitl [HU] <;> iassumption)
    (hQ := fun s h c =>
      ⟨((h c).2.2 main_arg0 (Pipeline.mem_restRefs_of _ rfl (by decide))).trans
          ((after1_keeps _ _ (by decide)).trans ((exitVal_of_ne m dats c _ (by decide) (by decide)).trans (V_main_arg0 m c))),
        ((h c).2.2 main_arg1 (Pipeline.mem_restRefs_of _ rfl (by decide))).trans
          ((after1_keeps _ _ (by decide)).trans ((exitVal_of_ne m dats c _ (by decide) (by decide)).trans (V_main_arg1 m c))),
        (h c).2.2 main_v16 (Pipeline.mem_restRefs_of _ rfl (by decide)),
        (h c).2.2 main_v20 (Pipeline.mem_restRefs_of _ rfl (by decide))⟩)

end Cert.Kernel.Hand

end
-- ==== Proof.K.Run.lean ====
/-
  The program's run from the proof data of the one pipeline: every weakly fair execution terminates, nothing
  faults, the two argument arrays end as launched, and the two results hold what the host operations after the
  region compute from the two mined vectors the pipeline wrote back.
-/
import proofs.«177782_j12764642804226_1_alg».proof.Proof.K.Frame
import proofs.«177782_j12764642804226_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with the results named over the contents at the region's exit. -/
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after hostOps1 (exitVal m (dats m) c) (Proc.devRef .tc main_v16)
      ∧ r.2.mem ((c.tc : Thread nD τ).loc main_v20) = StableHlo.after hostOps1 (exitVal m (dats m) c) (Proc.devRef .tc main_v20)) :=
  run_of m ρ (dats m) (fun c => (body_obligation m c).loose) (q0 m) (q1 m) (q_ge m) (fun _ _ => rfl) (A_eq m) (hin m) (hout m)

/-- The frame: the program runs to the end and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

end Cert.Kernel.Hand

end
-- ==== Proof.KI.Base.lean ====
/-
  The pieces every later module is stated over, for the one kernel of this program: the contents the region is
  entered at (after the eight host operations before it), the windows' blocks read off those contents, the two
  conditions of the body's branches decided over the sixteen grid points (the reduction axis is the inner one: the
  accumulators are reset where the inner coordinate is 0 and written out where it is 3), where the two output
  windows are idle, and names for the staging and scratch memrefs the body is called with.
-/
import proofs.«177782_j12764642804226_1_alg».proof.Proof.Gen.KernelIdeal.Launch
import proofs.«177782_j12764642804226_1_alg».proof.Proof.Gen.KernelIdeal.Skeleton
import proofs.«177782_j12764642804226_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host operations before the region, the region, and the host operations after it: it reduces to
    the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument array. -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the accumulators' reset): taken where the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the accumulators written to the outputs): taken where the inner grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second branch is not taken the body stores nothing into output 6, and its block is not written back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Where the second branch is not taken the body stores nothing into output 7, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The two scratch accumulators (running maximum, running minimum), whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/-
  The kernel body at a point where the first branch is taken and the second is not (inner grid coordinate 0): it
  resets both accumulators (whatever they held), then stores into each its update over the reset value, and leaves
  the output buffers untouched.
-/
import proofs.«177782_j12764642804226_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a reset point: the accumulators may hold anything on entry; each ends with the run's pieces. -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.KernelIdeal.Hand

end
-- ==== Proof.KI.RunB.lean ====
/-
  The kernel body at a point where neither branch is taken (inner grid coordinate 1 or 2): from the six input blocks
  and the two accumulators at what the point before left, it stores into each accumulator its update (running
  maximum, running minimum) and leaves the output buffers untouched. The executor steps the body; the pieces each
  accumulator ends with are found by the run.
-/
import proofs.«177782_j12764642804226_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where neither branch is taken: the inputs and the (idle) outputs come back as they were, each
    accumulator with the run's pieces written. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.KernelIdeal.Hand

end
-- ==== Proof.KI.RunC.lean ====
/-
  The kernel body at a point where the second branch is taken and the first is not (inner grid coordinate 3): it
  updates both accumulators over what the point before left and then copies each into its output buffer
  (whatever that held).
-/
import proofs.«177782_j12764642804226_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point that writes the outputs: each output buffer and each accumulator ends with the run's pieces. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__mine_kernel_eq_skeleton]; unfold cc0__mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [HS0]
    · iexists _; iexact HS0
    iexists _; iexact HS1

end Cert.KernelIdeal.Hand

end
-- ==== Proof.KI.Frame.lean ====
/-
  What the two accumulators and the two output buffers hold after each of the sixteen grid points, the proof data of
  the pipeline built on it, and the body's obligation at every point.

  The grid is 4 × 4 with the reduction axis inner: point t has inner coordinate t mod 4. Where it is 0 the body
  resets the running maximum and minimum and takes in the first tile of columns; where it is 1 or 2 it takes in the
  next tile over what the point before left; where it is 3 it takes in the last tile and copies both accumulators to
  the output buffers, which the pipeline writes back to rows 1024·(t div 4) … of the two result arrays. Windows 0 and
  1 read the same array (the rows of the point's row tile, and those of its column tile), each holding half of it.
-/
import proofs.«177782_j12764642804226_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The run's pieces for the first accumulator tile it, so they cover it. -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- The run's pieces for the second accumulator tile it, so they cover it. -/
theorem scover0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What this case leaves in the first accumulator: its pieces read back. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- What this case leaves in the second accumulator: its pieces read back. -/
def sout0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- The run's pieces for the first accumulator tile it, so they cover it. -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- The run's pieces for the second accumulator tile it, so they cover it. -/
theorem scover0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What this case leaves in the first accumulator: its pieces read back. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- What this case leaves in the second accumulator: its pieces read back. -/
def sout0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- The run's pieces for the first output buffer tile it, so they cover it. -/
theorem cover0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- The run's pieces for the second output buffer tile it, so they cover it. -/
theorem cover0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- The run's pieces for the first accumulator tile it, so they cover it. -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- The run's pieces for the second accumulator tile it, so they cover it. -/
theorem scover0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What this case leaves in the first output buffer: its pieces read back. -/
def out0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- What this case leaves in the second output buffer: its pieces read back. -/
def out0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What this case leaves in the first accumulator: its pieces read back. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What this case leaves in the second accumulator: its pieces read back. -/
def sout0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## Point by point -/

/-- What the two output buffers and the two accumulators hold after a point. -/
abbrev St (F : FTy → Type) [FloatOps F] : Type := Vec F S1024x1 .f32 × Vec F S1024x1 .f32 × Vec F S1024x1 .f32 × Vec F S1024x1 .f32

/-- A placeholder for an output buffer at a point where the body stores nothing into it; nothing reads it. -/
def idle6 : Vec F S1024x1 .f32 := VO0_6.read (Elt F) VO0_6.junk
def idle7 : Vec F S1024x1 .f32 := VO0_7.read (Elt F) VO0_7.junk

/-- After a reset point. -/
def stA (c : Dev nD) (t : Fin cfg0.N) (h0 : t.val % 4 = 0) : St F :=
  (idle6, idle7,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t))

/-- After a middle point, over what the point before left in the accumulators. -/
def stB (c : Dev nD) (t : Fin cfg0.N) (h0 : ¬t.val % 4 = 0) (h1 : ¬t.val % 4 = 3) (xs0 xs1 : Vec F S1024x1 .f32) : St F :=
  (idle6, idle7,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1)

/-- After a point that writes the outputs. -/
def stC (c : Dev nD) (t : Fin cfg0.N) (h0 : ¬t.val % 4 = 0) (h1 : t.val % 4 = 3) (xs0 xs1 : Vec F S1024x1 .f32) : St F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1)

/-- The accumulation: the state after position `n`, by the case of `n mod 4`, over the state after `n - 1`. -/
def outsAt0 (c : Dev nD) : (n : ℕ) → n < cfg0.N → St F
  | 0, hn => stA m c ⟨0, hn⟩ (Nat.zero_mod _)
  | n + 1, hn =>
    if h0 : (n + 1) % 4 = 0 then stA m c ⟨n + 1, hn⟩ h0
    else if h1 : (n + 1) % 4 = 3 then
      stC m c ⟨n + 1, hn⟩ h0 h1 (outsAt0 c n (Nat.lt_of_succ_lt hn)).2.2.1 (outsAt0 c n (Nat.lt_of_succ_lt hn)).2.2.2
    else
      stB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 4 = 0) : outsAt0 m c t.val t.isLt = stA m c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 m c t.val t.isLt = stB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: before the first point whatever the launch hands over; afterwards the
    two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block
    and the outputs' at the accumulation's components; the invariant above; nothing owed; the array the first two
    windows share held half by each, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point. The inputs' buffers hold their blocks; `t mod 4` says which case the point is in; the
    invariant hands the run the accumulators (at anything before the first point, else at what the point before
    left) and takes them back at this point's contents, by the covers; an output buffer the case does not store into
    is handed back as found; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  obtain ⟨hl0, hl1, hl2, hl3, hl4, hl5⟩ := leaves0_in m c t
  rw [hl0, hl1, hl2, hl3, hl4, hl5]
  have hN : t.val < 16 := lt_of_lt_of_eq t.isLt (show cfg0.N = 16 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 6 t (idleAt0_6 t hc1) (noFlush0_6 t hc1),
      Dat.leavesExact_idle (dats m 0 c) 7 t (idleAt0_7 t hc1) (noFlush0_7 t hc1)]
    rw [outsAt0_A m c t h0]
    unfold stA sout0_A_0 sout0_A_1; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 6 t = owns (c : Thread nD τ) (ms0_6 t) fullShare ((dats m 0 c).after 6 t) from by
        unfold Dat.leavesExact; rw [liveAt0_6 t hc1], after0_6]
      rw [show (dats m 0 c).leavesExact 7 t = owns (c : Thread nD τ) (ms0_7 t) fullShare ((dats m 0 c).after 7 t) from by
        unfold Dat.leavesExact; rw [liveAt0_7 t hc1], after0_7]
      rw [outsAt0_C m c t h0 h1]
      unfold stC out0_C_6 out0_C_7 sout0_C_0 sout0_C_1; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dats m 0 c) 6 t (idleAt0_6 t hc1) (noFlush0_6 t hc1),
        Dat.leavesExact_idle (dats m 0 c) 7 t (idleAt0_7 t hc1) (noFlush0_7 t hc1)]
      rw [outsAt0_B m c t h0 h1]
      unfold stB sout0_B_0 sout0_B_1; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-- The shares: the array windows 0 and 1 both read is held half by each; every other input whole. -/
theorem q0 (c : Dev nD) : (dats m 0 c).q 0 = fullShare.left := rfl
theorem q1 (c : Dev nD) : (dats m 0 c).q 1 = fullShare.right := rfl
theorem q_ge (c : Dev nD) (w : Fin cfg0.W) (h : 2 ≤ w.val) : (dats m 0 c).q w = fullShare := by
  match w, h with
  | ⟨0, _⟩, h => exact absurd h (by simp)
  | ⟨1, _⟩, h => exact absurd h (by simp)
  | ⟨_ + 2, _⟩, _ => rfl

end Cert.KernelIdeal.Hand

end
-- ==== Proof.KI.Launch.lean ====
/-
  The launch of the one kernel of this program, whose first two windows read the SAME array: the core's unscoped
  buffers are split into the seven distinct buffers behind the eight windows and the rest; the shared buffer's full
  share is halved between its two windows on the way in and rejoined on the way out; the host operations after the
  region run within all the unscoped buffers at once, from the contents the region leaves (the entry contents with
  the two output arrays at what the pipeline wrote back).
-/
import proofs.«177782_j12764642804226_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The seven buffers behind the eight windows -/

/-- The distinct buffers behind the windows' arrays, one by one. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v0, main_v3, main_v4, main_v5, main_v6, main_v7_0, main_v7_1] (by decide) (by decide) _

/-- Window `w`'s array is a whole buffer: the pipeline's points-to of it, at the share the core holds it at. -/
theorem arr_pt {c : Dev nD} (dat : Dat τ (Elt F) Unit ℕ (UR sig nD τ) ℕ cfg0 c) (w : Fin cfg0.W) (q : PosShare TreeShare)
    (hs : dat.share w = q) (G : (w : Fin cfg0.W) → Buf (Elt F) ((cfg0.win w).arr.view.loc (c : Thread nD τ))) :
    ((cfg0.win w).arr.view.loc (c : Thread nD τ) ↦[(cfg0.win w).arr.view.set]{dat.share w} G w : sProp 𝕄)
      = (((c : Thread nD τ).loc (Pipeline.arrRef spec0 w)) ↦{q} G w) := by
  rw [(arr_whole0 w).set_eq_univ, hs]

/-- The pipeline's arrays window by window: the two windows on the shared buffer hold its two half shares, every
    other window its buffer whole. -/
theorem arrays0_eq {c : Dev nD} (dat : Dat τ (Elt F) Unit ℕ (UR sig nD τ) ℕ cfg0 c)
    (hq0 : dat.q 0 = fullShare.left) (hq1 : dat.q 1 = fullShare.right) (hq : ∀ w : Fin cfg0.W, 2 ≤ w.val → dat.q w = fullShare)
    (G : (w : Fin cfg0.W) → Buf (Elt F) ((cfg0.win w).arr.view.loc (c : Thread nD τ))) :
    (dat.arrays G : sProp 𝕄)
      = iprop((((c : Thread nD τ).loc main_v0) ↦{fullShare.left} G 0) ∗ (((c : Thread nD τ).loc main_v0) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4) ∗ (((c : Thread nD τ).loc main_v6) ↦{fullShare} G 5)
          ∗ (((c : Thread nD τ).loc main_v7_0) ↦{fullShare} G 6) ∗ (((c : Thread nD τ).loc main_v7_1) ↦{fullShare} G 7)) := by
  unfold Dat.arrays
  refine (bigSep_W0 _).trans ?_
  exact congrArg₂ _ (arr_pt dat 0 _ hq0 G) (congrArg₂ _ (arr_pt dat 1 _ hq1 G) (congrArg₂ _ (arr_pt dat 2 _ (hq 2 (by decide)) G)
    (congrArg₂ _ (arr_pt dat 3 _ (hq 3 (by decide)) G) (congrArg₂ _ (arr_pt dat 4 _ (hq 4 (by decide)) G)
    (congrArg₂ _ (arr_pt dat 5 _ (hq 5 (by decide)) G) (congrArg₂ _ (arr_pt dat 6 _ rfl G) (arr_pt dat 7 _ rfl G)))))))

/-- The pipeline's arrays at contents read off `W` are the buffers behind them at `W`: the shared buffer's two
    half shares make its full share, and back. -/
theorem arrays_arrBufs {c : Dev nD} (dat : Dat τ (Elt F) Unit ℕ (UR sig nD τ) ℕ cfg0 c)
    (hq0 : dat.q 0 = fullShare.left) (hq1 : dat.q 1 = fullShare.right) (hq : ∀ w : Fin cfg0.W, 2 ≤ w.val → dat.q w = fullShare)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat.arrays G : sProp 𝕄) = Pipeline.arrBufs spec0 c W := by
  rw [arrays0_eq dat hq0 hq1 hq G, arrBufs0_eq c W, hG 0, hG 1, hG 2, hG 3, hG 4, hG 5, hG 6, hG 7]
  refine BI.Entails.antisymm (show (_ : sProp 𝕄) ⊢ _ from ?_) (show (_ : sProp 𝕄) ⊢ _ from ?_)
  · iintro ⟨H0, H1, HR⟩
    isplitl [H0 H1]
    · iapply (pointsTo_share (PosShare.mem_left_op_right fullShare)).2
      isplitl [H0] <;> iassumption
    · iexact HR
  · iintro ⟨H0, HR⟩
    ihave H := (pointsTo_share (PosShare.mem_left_op_right fullShare)).1 $$ H0
    icases H with ⟨H0, H1⟩
    isplitl [H0]; · iexact H0
    isplitl [H1]; · iexact H1
    iexact HR

/-! ## The contents at the region's exit -/

/-- The contents at the region's exit: the entry contents with the two output arrays at what the pipeline wrote back. -/
def exitVal (dats : (p : Fin 1) → (c : Dev nD) → Dat τ (Elt F) Unit ℕ (UR sig nD τ) ℕ (cfgs p) c) (c : Dev nD) : Valuation τ sig (Elt F) :=
  Function.update (Function.update (V0 m c) (Proc.devRef .tc main_v7_0) ((dats 0 c).arrAt 6 cfg0.N))
    (Proc.devRef .tc main_v7_1) ((dats 0 c).arrAt 7 cfg0.N)

theorem exitVal_out6 (dats : (p : Fin 1) → (c : Dev nD) → Dat τ (Elt F) Unit ℕ (UR sig nD τ) ℕ (cfgs p) c) (c : Dev nD) :
    exitVal m dats c (Proc.devRef .tc main_v7_0) = (dats 0 c).arrAt 6 cfg0.N := by
  unfold exitVal
  rw [Function.update_of_ne (StableHlo.devRef_ne_of_ne (by decide)), Function.update_self]

theorem exitVal_out7 (dats : (p : Fin 1) → (c : Dev nD) → Dat τ (Elt F) Unit ℕ (UR sig nD τ) ℕ (cfgs p) c) (c : Dev nD) :
    exitVal m dats c (Proc.devRef .tc main_v7_1) = (dats 0 c).arrAt 7 cfg0.N := by
  unfold exitVal
  rw [Function.update_self]

theorem exitVal_of_ne (dats : (p : Fin 1) → (c : Dev nD) → Dat τ (Elt F) Unit ℕ (UR sig nD τ) ℕ (cfgs p) c) (c : Dev nD)
    (b : Ref sig .tc) (h6 : b ≠ main_v7_0) (h7 : b ≠ main_v7_1) :
    exitVal m dats c (Proc.devRef .tc b) = V0 m c (Proc.devRef .tc b) := by
  unfold exitVal
  rw [Function.update_of_ne (StableHlo.devRef_ne_of_ne h7), Function.update_of_ne (StableHlo.devRef_ne_of_ne h6)]

/-- Every window's array at the region's exit is what the exit contents hold at it: an input array is never written
    and stays at the entry contents, an output array is at what the pipeline wrote back. -/
theorem arrAt_exit (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) :
    (dats 0 c).arrAt w cfg0.N = exitVal m dats c (Proc.devRef .tc (Pipeline.arrRef spec0 w)) := by
  have h : ∀ w : Fin 8, ((cfg0.win w).isOut = false ∧ Pipeline.arrRef spec0 w ≠ main_v7_0 ∧ Pipeline.arrRef spec0 w ≠ main_v7_1) ∨ w = 6 ∨ w = 7 := by decide
  rcases h w with ⟨hi, h6, h7⟩ | rfl | rfl
  · rw [(dats 0 c).arrAt_in w hi, hA c w, exitVal_of_ne m dats c _ h6 h7]
  · exact (exitVal_out6 m dats c).symm
  · exact (exitVal_out7 m dats c).symm

/-- The buffers that bypass the region hold at its exit what they held at its entry. -/
theorem unscopedRest_exit (dats : (p : Fin 1) → (c : Dev nD) → Dat τ (Elt F) Unit ℕ (UR sig nD τ) ℕ (cfgs p) c) (c : Dev nD) :
    (Pipeline.unscopedRest spec0 c (fun b => exitVal m dats c (Proc.devRef .tc b)) : sProp 𝕄) = Pipeline.unscopedRest spec0 c (V m c) := by
  unfold Pipeline.unscopedRest
  exact bigSep_congr fun b hb => by
    beta_reduce
    rw [exitVal_of_ne m dats c b
      (fun e => (Finset.mem_sdiff.mp hb).2 (Finset.mem_image.mpr ⟨6, Finset.mem_univ _, e.symm⟩))
      (fun e => (Finset.mem_sdiff.mp hb).2 (Finset.mem_image.mpr ⟨7, Finset.mem_univ _, e.symm⟩))]

/-! ## The host operations after the region -/

/-- The references the later host operations write. -/
abbrev wr1 : List (Ref sig .tc) :=
  [main_v8, main_v9, main_v10, main_cst_0, main_v11, main_v12, main_cst_1, main_v13, main_v14, main_cst_2, main_v15, main_cst_3,
    main_v16, main_v17, main_v18, main_cst_4, main_v19, main_cst_5, main_v20]

theorem hostOps1_writes : (hostOps1 : List (HloOp τ sig (Elt F))).Forall fun op => op.writes ⊆ (wr1.map (Proc.devRef (τ := τ) .tc)).toFinset := by
  refine ⟨?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A reference none of them writes keeps its contents. -/
theorem after1_keeps (X : Valuation τ sig (Elt F)) (b : Ref sig .tc) (hb : b ∉ wr1) :
    StableHlo.after hostOps1 X (Proc.devRef .tc b) = X (Proc.devRef .tc b) :=
  StableHlo.after_of_writes_sub hostOps1 X hostOps1_writes hb

/-- No window's array is written after the region. -/
theorem arr_not_written : ∀ w : Fin 8, Pipeline.arrRef spec0 w ∉ wr1 := by decide

/-- All the core's unscoped buffers, held at contents `X` that agree with the pipeline's arrays after `n` points, are
    the pipeline's arrays and the buffers that bypass the region at `X`. -/
theorem held_arrays (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin cfg0.W), 2 ≤ w.val → (dats 0 c).q w = fullShare)
    (c : Dev nD) (X : Valuation τ sig (Elt F)) (n : ℕ)
    (hX : ∀ w, (dats 0 c).arrAt w n = X (Proc.devRef .tc (Pipeline.arrRef spec0 w))) :
    (StableHlo.held (c : Thread nD τ) (Pipeline.ucRefs τ sig) X : sProp 𝕄)
      = iprop((dats 0 c).arrays ((dats 0 c).arrAt · n) ∗ Pipeline.unscopedRest spec0 c (fun b => X (Proc.devRef .tc b))) := by
  have h1 : (StableHlo.held (c : Thread nD τ) (Pipeline.ucRefs τ sig) X : sProp 𝕄)
      = unscopedBufs c (fun b => X (Proc.devRef .tc b)) :=
    (Pipeline.unscopedBufs_held (Ix := Unit) (Name := ℕ) (U := UR sig nD τ) (Lvl := ℕ) c X).symm
  have h2 : (unscopedBufs c (fun b => X (Proc.devRef .tc b)) : sProp 𝕄)
      = iprop(Pipeline.arrBufs spec0 c (fun b => X (Proc.devRef .tc b)) ∗ Pipeline.unscopedRest spec0 c (fun b => X (Proc.devRef .tc b))) :=
    Pipeline.unscopedBufs_split₀ cfgs (0 : Fin 1) winFacts₀0.arr_unscoped c _
  rw [h1, h2, arrays_arrBufs (dats 0 c) (hq0 c) (hq1 c) (hq c) (fun b => X (Proc.devRef .tc b)) _ hX]

/-- THE LINES AFTER THE REGION: from the region's exit — the boundary, the pipeline's arrays as the pipeline leaves
    them, the bypassing buffers at the entry contents — the host operations run within all the unscoped buffers and hand
    back the arrays, which they do not write, and the bypassing buffers at what the operations compute from the exit
    contents. -/
theorem tail_run (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin cfg0.W), 2 ≤ w.val → (dats 0 c).q w = fullShare)
    (hA : ∀ c w, (dats 0 c).A w = V m c (Pipeline.arrRef spec0 w))
    (c : Dev nD) (Q' : PUnit → sProp 𝕄) :
    iprop((iprop((dats 0 c).arrays ((dats 0 c).arrAt · cfg0.N)
              ∗ Pipeline.unscopedRest spec0 c (fun b => StableHlo.after hostOps1 (exitVal m dats c) (Proc.devRef .tc b))) -∗ Q' ⟨⟩)
        ∗ boundary (c : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  rw [← unscopedRest_exit m dats c,
    ← held_arrays dats hq0 hq1 hq c (exitVal m dats c) cfg0.N (arrAt_exit m dats hA c),
    ← held_arrays dats hq0 hq1 hq c (StableHlo.after hostOps1 (exitVal m dats c)) cfg0.N
      (fun w => (arrAt_exit m dats hA c w).trans (after1_keeps _ _ (arr_not_written w)).symm),
    show Pipeline.chain [StableHlo.seq (hostOps1 (F := F))] = Pipeline.chain ([hostOps1].map StableHlo.seq ++ []) from rfl]
  iintro ⟨Hk, Hb⟩
  iapply (Pipeline.wp_seqs_then (pcfgs (F := F)) defs₀ Variants.none c (Pipeline.ucRefs τ sig) [] [hostOps1]
    (fun ops ho op h => Pipeline.sub_ucRefs op ((List.forall_iff_forall_mem.mp hostOps1_sub) op (List.mem_singleton.mp ho ▸ h)))
    (fun ops ho op h => (List.forall_iff_forall_mem.mp hostOps1_fresh) op (List.mem_singleton.mp ho ▸ h))
    (exitVal m dats c)) $$ Hb
  iintro Hb
  rw [Pipeline.chain_nil, wp_pure]
  imodintro
  iapply Hk
  icases Hb with ⟨-, H⟩
  iexact H

/-! ## The run -/

set_option backward.isDefEq.respectTransparency.types false in
/-- THE RUN of the program around its one region, for proof data whose first two windows hold the two halves of the
    shared array's full share: the two arguments end as they were launched, and the two results hold what the later
    host operations compute from the region's exit contents. -/
theorem run_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq : ∀ c (w : Fin cfg0.W), 2 ≤ w.val → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after hostOps1 (exitVal m dats c) (Proc.devRef .tc main_v16)
      ∧ r.2.mem ((c.tc : Thread nD τ).loc main_v20) = StableHlo.after hostOps1 (exitVal m dats c) (Proc.devRef .tc main_v20)) := by
  unfold defs
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_arrBufs (dats 0 c) (hq0 c) (hq1 c) (hq c) (V m c) _ (fun w => hA c w)).symm)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => StableHlo.after hostOps1 (exitVal m dats c) (Proc.devRef .tc b)))
    (hX := fun c => by
      rw [Pipeline.unscopedRestP_none]
      iintro ⟨HU, -, -, -, Hp, -⟩; imodintro
      isplitl [Hp]; · iexists _; iexact Hp
      iexact HU)
    (hin := fun c => (show (_ : sProp 𝕄) ⊢ Pipeline.ΦA spec0 c from by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq hA c Q')
    (QY := fun c s => ∀ b ∈ Pipeline.restRefs sig spec0,
      s.mem ((c.tc : Thread nD τ).loc b) = StableHlo.after hostOps1 (exitVal m dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (exitVal m dats c) (Proc.devRef .tc b)) s')
      isplitl [HU] <;> iassumption)
    (hQ := fun s h c =>
      ⟨((h c).2.2 main_arg0 (Pipeline.mem_restRefs_of _ rfl (by decide))).trans
          ((after1_keeps _ _ (by decide)).trans ((exitVal_of_ne m dats c _ (by decide) (by decide)).trans (V_main_arg0 m c))),
        ((h c).2.2 main_arg1 (Pipeline.mem_restRefs_of _ rfl (by decide))).trans
          ((after1_keeps _ _ (by decide)).trans ((exitVal_of_ne m dats c _ (by decide) (by decide)).trans (V_main_arg1 m c))),
        (h c).2.2 main_v16 (Pipeline.mem_restRefs_of _ rfl (by decide)),
        (h c).2.2 main_v20 (Pipeline.mem_restRefs_of _ rfl (by decide))⟩)

end Cert.KernelIdeal.Hand

end
-- ==== Proof.KI.Run.lean ====
/-
  The program's run from the proof data of the one pipeline: every weakly fair execution terminates, nothing
  faults, the two argument arrays end as launched, and the two results hold what the host operations after the
  region compute from the two mined vectors the pipeline wrote back.
-/
import proofs.«177782_j12764642804226_1_alg».proof.Proof.KI.Frame
import proofs.«177782_j12764642804226_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with the results named over the contents at the region's exit. -/
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after hostOps1 (exitVal m (dats m) c) (Proc.devRef .tc main_v16)
      ∧ r.2.mem ((c.tc : Thread nD τ).loc main_v20) = StableHlo.after hostOps1 (exitVal m (dats m) c) (Proc.devRef .tc main_v20)) :=
  run_of m ρ (dats m) (fun c => (body_obligation m c).loose) (q0 m) (q1 m) (q_ge m) (fun _ _ => rfl) (A_eq m) (hin m) (hout m)

/-- The frame: the program runs to the end and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

end Cert.KernelIdeal.Hand

end
-- ==== Proof.KI.AccDefs.lean ====
/-
  Names for what the kernel computes, tile by tile. The sixteen grid points are (row tile, column tile) pairs; at a
  point the body forms, for its 1024 × 1024 tile of pairs (row p of the row tile, row q of the column tile), the
  distance matrix, the candidates for the hardest positive (distance less a penalty where the labels differ) and
  for the hardest negative (distance plus a penalty where they agree), and folds each candidate row into a running
  maximum / minimum carried across the four column tiles of the row tile.
-/
import proofs.«177782_j12764642804226_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point with row tile `ti` and column tile `tj`: the column tile is the inner grid axis. -/
def pt (ti tj : Fin 4) : Fin cfg0.N := ⟨4 * ti.val + tj.val, by have : cfg0.N = 16 := N_0; omega⟩

/-- The distance tile of a point. -/
def cand20 (c : Dev nD) (t : Fin cfg0.N) : FVec F S1024x1024 .f32 :=
  k0_pay5 (iblk m c 0 t) (iblk m c 1 t) (iblk m c 2 t) (iblk m c 3 t)
/-- The hardest-positive candidates of a point: distance less the penalty where the labels differ. -/
def cand7 (c : Dev nD) (t : Fin cfg0.N) : FVec F S1024x1024 .f32 :=
  k0_pay7 (iblk m c 0 t) (iblk m c 1 t) (iblk m c 2 t) (iblk m c 3 t) (iblk m c 4 t) (iblk m c 5 t)
/-- The penalty tile of a point where the labels agree (added to the distance for the hardest negative). -/
def cand36 (c : Dev nD) (t : Fin cfg0.N) : FVec F S1024x1024 .f32 :=
  k0_pay8 (iblk m c 4 t) (iblk m c 5 t)

/-- The running maximum of row tile `ti` after its four column tiles, from the reset value. -/
def acc6 (c : Dev nD) (ti : Fin 4) : Vec F S1024x1 .f32 :=
  k0_pay1 (cand7 m c (pt ti 3)) (k0_pay1 (cand7 m c (pt ti 2)) (k0_pay1 (cand7 m c (pt ti 1)) (k0_pay1 (cand7 m c (pt ti 0)) (k0_pay3 (F := F)))))
/-- The running minimum of row tile `ti` after its four column tiles, from the reset value. -/
def acc7 (c : Dev nD) (ti : Fin 4) : Vec F S1024x1 .f32 :=
  k0_pay2 (cand20 m c (pt ti 3)) (cand36 m c (pt ti 3)) (k0_pay2 (cand20 m c (pt ti 2)) (cand36 m c (pt ti 2))
    (k0_pay2 (cand20 m c (pt ti 1)) (cand36 m c (pt ti 1)) (k0_pay2 (cand20 m c (pt ti 0)) (cand36 m c (pt ti 0)) (k0_pay4 (F := F)))))

/-- Row `i` of the 4096 lies in row tile `i / 1024`, at position `i % 1024`. -/
def tileOf (i : Fin 4096) : Fin 4 := ⟨i.val / 1024, by omega⟩
def inTile (i : Fin 4096) : Fin 1024 := ⟨i.val % 1024, Nat.mod_lt _ (by omega)⟩

end Cert.KernelIdeal.Hand

end
-- ==== Proof.KI.Acc.lean ====
/-
  What the body's run leaves, as arithmetic. At every grid point the run stores into each accumulator ONE block through
  the whole of it: the running maximum folded with the row maxima of the point's hardest-positive candidates, the
  running minimum folded with the row minima of its hardest-negative candidates. At a reset point the fold starts
  from the reset value (−∞ for the maximum, +∞ for the minimum), which the run has just stored and reads back; at the
  other points from what the point before left. At the last column tile of a row tile the run also copies both
  accumulators, read back after the update, into the output buffers. So after the four column tiles of row tile
  `ti` the first output buffer holds the four-fold running maximum and the second the four-fold running minimum.
-/
import proofs.«177782_j12764642804226_1_alg».proof.Proof.KI.Frame
import proofs.«177782_j12764642804226_1_alg».proof.Proof.KI.AccDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a block stored or loaded through the whole of a rank-two buffer are both zero. -/
theorem zeros2 : (![0, 0] : Fin 2 → Nat) = fun _ => 0 := funext fun a => by fin_cases a <;> rfl

/-! ## What each case leaves, as the payloads -/

/-- At a reset point the first accumulator ends at the running-maximum update over the reset value: the reset's store is overwritten by the update's, whose load read the reset value back. -/
theorem sout0_A_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay7 x0 x1 x2 x3 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2, View.readCov_unit_zero (S := S1024x1) _ zeros2]

/-- At a reset point the second accumulator ends at the running-minimum update over the reset value. -/
theorem sout0_A_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay5 x0 x1 x2 x3) (k0_pay8 x4 x5) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2, View.readCov_unit_zero (S := S1024x1) _ zeros2]

/-- At a middle point the first accumulator ends at the running-maximum update over what it held. -/
theorem sout0_B_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2]

/-- At a middle point the second accumulator ends at the running-minimum update over what it held. -/
theorem sout0_B_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3) (k0_pay8 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2]

/-- At a point that writes the outputs the first accumulator ends at the running-maximum update over what it held. -/
theorem sout0_C_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2]

/-- At a point that writes the outputs the second accumulator ends at the running-minimum update over what it held. -/
theorem sout0_C_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3) (k0_pay8 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2]

/-- The first output buffer ends at the first accumulator read back after its update: the running-maximum update. -/
theorem out0_C_6_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2, View.readCov_unit_zero (S := S1024x1) _ zeros2]

/-- The second output buffer ends at the second accumulator read back after its update: the running-minimum update. -/
theorem out0_C_7_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3) (k0_pay8 x4 x5) xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero zeros2]
  simp only [View.readAt_eq_ld, harg2.read_unread, harg3.read_unread, harg4.read_unread, harg5.read_unread, harg6.read_unread, harg7.read_unread, harg10.read_unread, harg11.read_unread, View.ld_unit_zero (S := S1024x2048) zeros2, View.ld_unit_zero (S := S1024x1) zeros2, View.ld_unit_zero (S := S1x1024) zeros2, View.readCov_unit_zero (S := S1024x1) _ zeros2]

/-! ## Point by point

  One step of the accumulation at each kind of point, in the candidates' names; then the four steps of a row tile. -/

theorem pt_val (ti tj : Fin 4) : (pt ti tj).val = 4 * ti.val + tj.val := rfl

/-- The state after a position does not depend on how the position is written. -/
theorem outsAt0_at_pred (c : Dev nD) (n n' : ℕ) (h : n < cfg0.N) (h' : n' < cfg0.N) (e : n = n') :
    outsAt0 m c n h = outsAt0 m c n' h' := by
  subst e; rfl

/-- After a reset point the first accumulator is the running maximum of the point's candidates from the reset value. -/
theorem stepA_0 (c : Dev nD) (t : Fin cfg0.N) (h0 : t.val % 4 = 0) :
    (outsAt0 m c t.val t.isLt).2.2.1 = k0_pay1 (cand7 m c t) (k0_pay3 (F := F)) := by
  rw [outsAt0_A m c t h0]
  unfold stA cand7
  dsimp only
  exact sout0_A_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t)

/-- After a reset point the second accumulator is the running minimum of the point's candidates from the reset value. -/
theorem stepA_1 (c : Dev nD) (t : Fin cfg0.N) (h0 : t.val % 4 = 0) :
    (outsAt0 m c t.val t.isLt).2.2.2 = k0_pay2 (cand20 m c t) (cand36 m c t) (k0_pay4 (F := F)) := by
  rw [outsAt0_A m c t h0]
  unfold stA cand20 cand36
  dsimp only
  exact sout0_A_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t)

/-- After a middle point the first accumulator is the running maximum of the point's candidates over what the point
    before (`t'`) left. -/
theorem stepB_0 (c : Dev nD) (t t' : Fin cfg0.N) (h0 : ¬t.val % 4 = 0) (h1 : ¬t.val % 4 = 3) (e : t.val - 1 = t'.val) :
    (outsAt0 m c t.val t.isLt).2.2.1 = k0_pay1 (cand7 m c t) (outsAt0 m c t'.val t'.isLt).2.2.1 := by
  rw [← outsAt0_at_pred m c (t.val - 1) t'.val (Nat.lt_of_le_of_lt (Nat.sub_le _ _) t.isLt) t'.isLt e]
  rw [outsAt0_B m c t h0 h1]
  unfold stB cand7
  dsimp only
  exact sout0_B_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After a middle point the second accumulator is the running minimum of the point's candidates over what the point
    before left. -/
theorem stepB_1 (c : Dev nD) (t t' : Fin cfg0.N) (h0 : ¬t.val % 4 = 0) (h1 : ¬t.val % 4 = 3) (e : t.val - 1 = t'.val) :
    (outsAt0 m c t.val t.isLt).2.2.2 = k0_pay2 (cand20 m c t) (cand36 m c t) (outsAt0 m c t'.val t'.isLt).2.2.2 := by
  rw [← outsAt0_at_pred m c (t.val - 1) t'.val (Nat.lt_of_le_of_lt (Nat.sub_le _ _) t.isLt) t'.isLt e]
  rw [outsAt0_B m c t h0 h1]
  unfold stB cand20 cand36
  dsimp only
  exact sout0_B_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After the last column tile the first output buffer is the running maximum of the point's candidates over what the
    point before left in the first accumulator. -/
theorem stepC_6 (c : Dev nD) (t t' : Fin cfg0.N) (h0 : ¬t.val % 4 = 0) (h1 : t.val % 4 = 3) (e : t.val - 1 = t'.val) :
    (outsAt0 m c t.val t.isLt).1 = k0_pay1 (cand7 m c t) (outsAt0 m c t'.val t'.isLt).2.2.1 := by
  rw [← outsAt0_at_pred m c (t.val - 1) t'.val (Nat.lt_of_le_of_lt (Nat.sub_le _ _) t.isLt) t'.isLt e]
  rw [outsAt0_C m c t h0 h1]
  unfold stC cand7
  dsimp only
  exact out0_C_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After the last column tile the second output buffer is the running minimum of the point's candidates over what
    the point before left in the second accumulator. -/
theorem stepC_7 (c : Dev nD) (t t' : Fin cfg0.N) (h0 : ¬t.val % 4 = 0) (h1 : t.val % 4 = 3) (e : t.val - 1 = t'.val) :
    (outsAt0 m c t.val t.isLt).2.1 = k0_pay2 (cand20 m c t) (cand36 m c t) (outsAt0 m c t'.val t'.isLt).2.2.2 := by
  rw [← outsAt0_at_pred m c (t.val - 1) t'.val (Nat.lt_of_le_of_lt (Nat.sub_le _ _) t.isLt) t'.isLt e]
  rw [outsAt0_C m c t h0 h1]
  unfold stC cand20 cand36
  dsimp only
  exact out0_C_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After the four column tiles of row tile `ti` the first output buffer holds the four-fold running maximum. -/
theorem outs6 (c : Dev nD) (ti : Fin 4) : (outsAt0 m c (pt ti 3).val (pt ti 3).isLt).1 = acc6 m c ti := by
  have a0 := stepA_0 m c (pt ti 0) (by rw [pt_val]; show (4 * ti.val + 0) % 4 = 0; omega)
  have a1 := stepB_0 m c (pt ti 1) (pt ti 0) (by rw [pt_val]; show ¬(4 * ti.val + 1) % 4 = 0; omega)
    (by rw [pt_val]; show ¬(4 * ti.val + 1) % 4 = 3; omega) (by rw [pt_val, pt_val]; show 4 * ti.val + 1 - 1 = 4 * ti.val + 0; omega)
  have a2 := stepB_0 m c (pt ti 2) (pt ti 1) (by rw [pt_val]; show ¬(4 * ti.val + 2) % 4 = 0; omega)
    (by rw [pt_val]; show ¬(4 * ti.val + 2) % 4 = 3; omega) (by rw [pt_val, pt_val]; show 4 * ti.val + 2 - 1 = 4 * ti.val + 1; omega)
  have a3 := stepC_6 m c (pt ti 3) (pt ti 2) (by rw [pt_val]; show ¬(4 * ti.val + 3) % 4 = 0; omega)
    (by rw [pt_val]; show (4 * ti.val + 3) % 4 = 3; omega) (by rw [pt_val, pt_val]; show 4 * ti.val + 3 - 1 = 4 * ti.val + 2; omega)
  rw [a3, a2, a1, a0]
  rfl

/-- After the four column tiles of row tile `ti` the second output buffer holds the four-fold running minimum. -/
theorem outs7 (c : Dev nD) (ti : Fin 4) : (outsAt0 m c (pt ti 3).val (pt ti 3).isLt).2.1 = acc7 m c ti := by
  have a0 := stepA_1 m c (pt ti 0) (by rw [pt_val]; show (4 * ti.val + 0) % 4 = 0; omega)
  have a1 := stepB_1 m c (pt ti 1) (pt ti 0) (by rw [pt_val]; show ¬(4 * ti.val + 1) % 4 = 0; omega)
    (by rw [pt_val]; show ¬(4 * ti.val + 1) % 4 = 3; omega) (by rw [pt_val, pt_val]; show 4 * ti.val + 1 - 1 = 4 * ti.val + 0; omega)
  have a2 := stepB_1 m c (pt ti 2) (pt ti 1) (by rw [pt_val]; show ¬(4 * ti.val + 2) % 4 = 0; omega)
    (by rw [pt_val]; show ¬(4 * ti.val + 2) % 4 = 3; omega) (by rw [pt_val, pt_val]; show 4 * ti.val + 2 - 1 = 4 * ti.val + 1; omega)
  have a3 := stepC_7 m c (pt ti 3) (pt ti 2) (by rw [pt_val]; show ¬(4 * ti.val + 3) % 4 = 0; omega)
    (by rw [pt_val]; show (4 * ti.val + 3) % 4 = 3; omega) (by rw [pt_val, pt_val]; show 4 * ti.val + 3 - 1 = 4 * ti.val + 2; omega)
  rw [a3, a2, a1, a0]
  rfl

end Cert.KernelIdeal.Hand

end
-- ==== Proof.KI.Final.lean ====
/-
  From blocks to the two result arrays. Each result array has 4096 rows in four blocks of 1024; the block of row
  tile r is written back once, at the last point of that row tile (the point whose inner coordinate is 3), and what
  is written there is the whole output buffer as that point left it. So row i of a result array is entry i mod 1024
  of what the last point of row tile i div 1024 left: once that is known to be the row tile's folded accumulator,
  the array is the four accumulators stacked.
-/
import proofs.«177782_j12764642804226_1_alg».proof.Proof.KI.Frame
import proofs.«177782_j12764642804226_1_alg».proof.Proof.KI.AccDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stacked arrays -/

/-- The four running maxima stacked: row `i` is entry `i mod 1024` of row tile `i div 1024`'s. -/
def stack6 (c : Dev nD) : Vec F S4096x1 .f32 :=
  fun i => acc6 m c (tileOf (i 0 : Fin 4096)) (ValueIdx.ix2 (inTile (i 0 : Fin 4096)) (0 : Fin 1))

/-- The four running minima stacked likewise. -/
def stack7 (c : Dev nD) : Vec F S4096x1 .f32 :=
  fun i => acc7 m c (tileOf (i 0 : Fin 4096)) (ValueIdx.ix2 (inTile (i 0 : Fin 4096)) (0 : Fin 1))

/-! ## The grid's arithmetic -/

/-- The state after a position does not depend on how the position is written. -/
theorem outsAt0_congr (c : Dev nD) {n n' : ℕ} (e : n = n') (hn : n < cfg0.N) (hn' : n' < cfg0.N) :
    outsAt0 m c n hn = outsAt0 m c n' hn' := by
  subst e; rfl

/-- Both output windows' block at point `t` is block `(t div 4, 0)` of its array. -/
theorem blockIndex6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)
theorem blockIndex7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- A point with inner coordinate 3 is the last point of its row tile. -/
theorem eq_pt_last (t : Fin cfg0.N) (ht : t.val % 4 = 3) :
    t.val = (pt ⟨t.val / 4, by have := t.isLt; have : cfg0.N = 16 := N_0; omega⟩ 3).val := by
  show t.val = 4 * (t.val / 4) + 3
  omega

/-! ## Result array 0: the running maxima -/

/-- What a writing point writes back to result array 0 is its block of the stacked maxima. -/
theorem flushed6_eq (c : Dev nD) (h6 : ∀ ti : Fin 4, (outsAt0 m c (pt ti 3).val (pt ti 3).isLt).1 = acc6 m c ti)
    (t : Fin cfg0.N) (ht : t.val % 4 = 3) :
    (dats m 0 c).flushed 6 t = ((cfg0.win 6).blk t).view.read (Elt F) (stack6 m c) := by
  have hN : cfg0.N = 16 := N_0
  have hlt := t.isLt
  obtain ⟨e0, e1⟩ := blockIndex6 t
  have hleft : (outsAt0 m c t.val t.isLt).1 = acc6 m c ⟨t.val / 4, by omega⟩ := by
    rw [outsAt0_congr m c (eq_pt_last t ht) t.isLt (pt ⟨t.val / 4, by omega⟩ 3).isLt]
    exact h6 _
  show (cfg0.win 6).cut (grid0.coords t) ((dats m 0 c).after 6 t) = _
  rw [after0_6, hleft]
  funext j
  have hj0 : (j 0).val < 1024 := (j 0).isLt
  have hj1 : (j 1).val < 1 := (j 1).isLt
  have hv : ((((cfg0.win 6).blk t).view.emb j) 0).val = win0_6.index t (0 : Fin 2) * 1024 + 1 * (j 0).val := rfl
  have et : tileOf ((((cfg0.win 6).blk t).view.emb j) 0 : Fin 4096) = ⟨t.val / 4, by omega⟩ :=
    Fin.ext (by show ((((cfg0.win 6).blk t).view.emb j) 0).val / 1024 = t.val / 4; rw [hv, e0]; omega)
  have ei : ValueIdx.ix2 (inTile ((((cfg0.win 6).blk t).view.emb j) 0 : Fin 4096)) (0 : Fin 1) = j := by
    funext a; apply Fin.ext
    match a with
    | ⟨0, _⟩ => show ((((cfg0.win 6).blk t).view.emb j) 0).val % 1024 = (j 0).val; rw [hv, e0]; omega
    | ⟨1, _⟩ => show 0 = (j 1).val; omega
  show acc6 m c ⟨t.val / 4, by omega⟩ j
    = acc6 m c (tileOf ((((cfg0.win 6).blk t).view.emb j) 0 : Fin 4096))
        (ValueIdx.ix2 (inTile ((((cfg0.win 6).blk t).view.emb j) 0 : Fin 4096)) (0 : Fin 1))
  rw [et, ei]

/-- A row of result array 0 is in point `t`'s block iff each coordinate is in the block's range on its axis. -/
theorem mem_blk6 (t : Fin cfg0.N) (i : S4096x1.Idx) :
    i ∈ ((cfg0.win 6).blk t).view.set
      ↔ ∀ a : Fin 2, win0_6.index t a * S1024x1.size a ≤ (i a).val ∧ (i a).val < win0_6.index t a * S1024x1.size a + S1024x1.size a := by
  show i ∈ ((View.whole main_v7_0).slice (win0_6.rect t)).set ↔ _
  rw [View.set_slice_whole, Rect.mem_set_unit]
  exact Iff.rfl

/-- Every row of result array 0 is written back: row `i` by the last point of row tile `i div 1024`. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨pt ⟨(i 0).val / 1024, by omega⟩ 3, (flush0_6 _).mpr (by show (4 * ((i 0).val / 1024) + 3) % 4 = 3; omega), ?_⟩
  rw [mem_blk6]
  obtain ⟨e0, e1⟩ := blockIndex6 (pt ⟨(i 0).val / 1024, by omega⟩ 3)
  have ev : (pt ⟨(i 0).val / 1024, by omega⟩ 3).val = 4 * ((i 0).val / 1024) + 3 := rfl
  intro a
  match a with
  | ⟨0, _⟩ =>
    show win0_6.index (pt ⟨(i 0).val / 1024, by omega⟩ 3) (0 : Fin 2) * 1024 ≤ (i 0).val
      ∧ (i 0).val < win0_6.index (pt ⟨(i 0).val / 1024, by omega⟩ 3) (0 : Fin 2) * 1024 + 1024
    rw [e0, ev]; omega
  | ⟨1, _⟩ =>
    show win0_6.index (pt ⟨(i 0).val / 1024, by omega⟩ 3) (1 : Fin 2) * 1 ≤ (i 1).val
      ∧ (i 1).val < win0_6.index (pt ⟨(i 0).val / 1024, by omega⟩ 3) (1 : Fin 2) * 1 + 1
    rw [e1]; omega

/-- Result array 0 after the run is the stacked maxima. -/
theorem final6 (c : Dev nD) (h6 : ∀ ti : Fin 4, (outsAt0 m c (pt ti 3).val (pt ti 3).isLt).1 = acc6 m c ti) :
    (dats m 0 c).arrAt 6 cfg0.N = stack6 m c :=
  (dats m 0 c).arrAt_eq_of_cover 6 (stack6 m c) (fun t hf => flushed6_eq m c h6 t ((flush0_6 t).mp hf)) (cover6)

/-- Row `i` of result array 0 is entry `i mod 1024` of the running maximum of row tile `i div 1024`. -/
theorem final6_of (c : Dev nD) (h6 : ∀ ti : Fin 4, (outsAt0 m c (pt ti 3).val (pt ti 3).isLt).1 = acc6 m c ti) (i : Fin 4096) :
    ((dats m 0 c).arrAt 6 cfg0.N : Vec F S4096x1 .f32) (ValueIdx.ix2 i (0 : Fin 1))
      = acc6 m c (tileOf i) (ValueIdx.ix2 (inTile i) (0 : Fin 1)) :=
  congrFun (final6 m c h6) (ValueIdx.ix2 i (0 : Fin 1))

/-! ## Result array 1: the running minima -/

/-- What a writing point writes back to result array 1 is its block of the stacked minima. -/
theorem flushed7_eq (c : Dev nD) (h7 : ∀ ti : Fin 4, (outsAt0 m c (pt ti 3).val (pt ti 3).isLt).2.1 = acc7 m c ti)
    (t : Fin cfg0.N) (ht : t.val % 4 = 3) :
    (dats m 0 c).flushed 7 t = ((cfg0.win 7).blk t).view.read (Elt F) (stack7 m c) := by
  have hN : cfg0.N = 16 := N_0
  have hlt := t.isLt
  obtain ⟨e0, e1⟩ := blockIndex7 t
  have hleft : (outsAt0 m c t.val t.isLt).2.1 = acc7 m c ⟨t.val / 4, by omega⟩ := by
    rw [outsAt0_congr m c (eq_pt_last t ht) t.isLt (pt ⟨t.val / 4, by omega⟩ 3).isLt]
    exact h7 _
  show (cfg0.win 7).cut (grid0.coords t) ((dats m 0 c).after 7 t) = _
  rw [after0_7, hleft]
  funext j
  have hj0 : (j 0).val < 1024 := (j 0).isLt
  have hj1 : (j 1).val < 1 := (j 1).isLt
  have hv : ((((cfg0.win 7).blk t).view.emb j) 0).val = win0_7.index t (0 : Fin 2) * 1024 + 1 * (j 0).val := rfl
  have et : tileOf ((((cfg0.win 7).blk t).view.emb j) 0 : Fin 4096) = ⟨t.val / 4, by omega⟩ :=
    Fin.ext (by show ((((cfg0.win 7).blk t).view.emb j) 0).val / 1024 = t.val / 4; rw [hv, e0]; omega)
  have ei : ValueIdx.ix2 (inTile ((((cfg0.win 7).blk t).view.emb j) 0 : Fin 4096)) (0 : Fin 1) = j := by
    funext a; apply Fin.ext
    match a with
    | ⟨0, _⟩ => show ((((cfg0.win 7).blk t).view.emb j) 0).val % 1024 = (j 0).val; rw [hv, e0]; omega
    | ⟨1, _⟩ => show 0 = (j 1).val; omega
  show acc7 m c ⟨t.val / 4, by omega⟩ j
    = acc7 m c (tileOf ((((cfg0.win 7).blk t).view.emb j) 0 : Fin 4096))
        (ValueIdx.ix2 (inTile ((((cfg0.win 7).blk t).view.emb j) 0 : Fin 4096)) (0 : Fin 1))
  rw [et, ei]

/-- A row of result array 1 is in point `t`'s block iff each coordinate is in the block's range on its axis. -/
theorem mem_blk7 (t : Fin cfg0.N) (i : S4096x1.Idx) :
    i ∈ ((cfg0.win 7).blk t).view.set
      ↔ ∀ a : Fin 2, win0_7.index t a * S1024x1.size a ≤ (i a).val ∧ (i a).val < win0_7.index t a * S1024x1.size a + S1024x1.size a := by
  show i ∈ ((View.whole main_v7_1).slice (win0_7.rect t)).set ↔ _
  rw [View.set_slice_whole, Rect.mem_set_unit]
  exact Iff.rfl

/-- Every row of result array 1 is written back: row `i` by the last point of row tile `i div 1024`. -/
theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  refine ⟨pt ⟨(i 0).val / 1024, by omega⟩ 3, (flush0_7 _).mpr (by show (4 * ((i 0).val / 1024) + 3) % 4 = 3; omega), ?_⟩
  rw [mem_blk7]
  obtain ⟨e0, e1⟩ := blockIndex7 (pt ⟨(i 0).val / 1024, by omega⟩ 3)
  have ev : (pt ⟨(i 0).val / 1024, by omega⟩ 3).val = 4 * ((i 0).val / 1024) + 3 := rfl
  intro a
  match a with
  | ⟨0, _⟩ =>
    show win0_7.index (pt ⟨(i 0).val / 1024, by omega⟩ 3) (0 : Fin 2) * 1024 ≤ (i 0).val
      ∧ (i 0).val < win0_7.index (pt ⟨(i 0).val / 1024, by omega⟩ 3) (0 : Fin 2) * 1024 + 1024
    rw [e0, ev]; omega
  | ⟨1, _⟩ =>
    show win0_7.index (pt ⟨(i 0).val / 1024, by omega⟩ 3) (1 : Fin 2) * 1 ≤ (i 1).val
      ∧ (i 1).val < win0_7.index (pt ⟨(i 0).val / 1024, by omega⟩ 3) (1 : Fin 2) * 1 + 1
    rw [e1]; omega

/-- Result array 1 after the run is the stacked minima. -/
theorem final7 (c : Dev nD) (h7 : ∀ ti : Fin 4, (outsAt0 m c (pt ti 3).val (pt ti 3).isLt).2.1 = acc7 m c ti) :
    (dats m 0 c).arrAt 7 cfg0.N = stack7 m c :=
  (dats m 0 c).arrAt_eq_of_cover 7 (stack7 m c) (fun t hf => flushed7_eq m c h7 t ((flush0_7 t).mp hf)) (cover7)

/-- Row `i` of result array 1 is entry `i mod 1024` of the running minimum of row tile `i div 1024`. -/
theorem final7_of (c : Dev nD) (h7 : ∀ ti : Fin 4, (outsAt0 m c (pt ti 3).val (pt ti 3).isLt).2.1 = acc7 m c ti) (i : Fin 4096) :
    ((dats m 0 c).arrAt 7 cfg0.N : Vec F S4096x1 .f32) (ValueIdx.ix2 i (0 : Fin 1))
      = acc7 m c (tileOf i) (ValueIdx.ix2 (inTile i) (0 : Fin 1)) :=
  congrFun (final7 m c h7) (ValueIdx.ix2 i (0 : Fin 1))

end Cert.KernelIdeal.Hand

end
-- ==== Proof.Spec.lean ====
import Idealize.ShloMosaic.PureOps.Ideal
import Idealize.ShloMosaic.PureOps.Ideal.Laws
import Idealize.ShloMosaic.Lib.ValueIdx
import Mathlib.Data.Finset.Fold

/-!
# Batch-hard triplet mining: the value both programs compute

For an embedding matrix `e` (4096 rows of 2048 extended reals) and a label per row, every quantity of the
loss is written here entry by entry on the extended reals:

* `sq e i` — the squared norm of row `i` (a sum started from the constant zero);
* `dot e i j` — the inner product of rows `i` and `j`;
* `dist e i j = sqrt (max ε (sq i + sq j − 2 · dot i j))`;
* `sim lab i j` — one where the labels agree, zero elsewhere;
* `apCand = dist − BIG · (1 − sim)`, `anCand = dist + BIG · sim`;
* `AP` — the row maximum of `apCand` from `−∞`, `AN` — the row minimum of `anCand` from `+∞`;
* `LOSS = (0 + Σ_i max 0 (MARGIN − (AN_i − AP_i))) / 4096`, `PREC = (0 + Σ_i [AN_i > AP_i]) / 4096`.

Every float constant stays the extended real its 32-bit word denotes; none is evaluated.
The last section splits a maximum (minimum) over 4096 columns into four blocks of 1024.
-/

noncomputable section

open scoped BigOperators

namespace Cert.Spec

open Idealize.ShloMosaic Idealize.ShloMosaic.ValueIdx

/-! ## Entries -/

/-- The squared norm of row `i`: the constant zero plus the sum of the squares of the row's entries. -/
def sq (e : (⟨2, ![4096, 2048]⟩ : Shape).Idx → EReal) (i : Fin 4096) : EReal :=
  Ideal.ofBits .f32 0x00000000#32 + ∑ k : Fin 2048, e (ix2 i k) * e (ix2 i k)

/-- The inner product of rows `i` and `j`. -/
def dot (e : (⟨2, ![4096, 2048]⟩ : Shape).Idx → EReal) (i j : Fin 4096) : EReal :=
  ∑ k : Fin 2048, e (ix2 i k) * e (ix2 j k)

/-- The clamped Euclidean distance of rows `i` and `j`. -/
def dist (e : (⟨2, ![4096, 2048]⟩ : Shape).Idx → EReal) (i j : Fin 4096) : EReal :=
  Ideal.sqrt (max (Ideal.ofBits .f32 0x2B8CBCCC#32)
    ((sq e i + sq e j) - Ideal.ofBits .f32 0x40000000#32 * dot e i j))

/-- One where rows `i` and `j` carry the same label, zero elsewhere. -/
def sim (lab : (⟨1, ![4096]⟩ : Shape).Idx → BitVec 32) (i j : Fin 4096) : EReal :=
  if lab (ix1 i) = lab (ix1 j) then 1 else 0

/-- The candidate for the hardest positive: the distance, pushed down by `BIG` where the labels differ. -/
def apCand (e : (⟨2, ![4096, 2048]⟩ : Shape).Idx → EReal) (lab : (⟨1, ![4096]⟩ : Shape).Idx → BitVec 32)
    (i j : Fin 4096) : EReal :=
  dist e i j - Ideal.ofBits .f32 0x4B18967F#32 * (Ideal.ofBits .f32 0x3F800000#32 - sim lab i j)

/-- The candidate for the hardest negative: the distance, pushed up by `BIG` where the labels agree. -/
def anCand (e : (⟨2, ![4096, 2048]⟩ : Shape).Idx → EReal) (lab : (⟨1, ![4096]⟩ : Shape).Idx → BitVec 32)
    (i j : Fin 4096) : EReal :=
  dist e i j + Ideal.ofBits .f32 0x4B18967F#32 * sim lab i j

/-- The hardest positive of each row: the maximum over the columns, from `−∞`. -/
def AP (e : (⟨2, ![4096, 2048]⟩ : Shape).Idx → EReal) (lab : (⟨1, ![4096]⟩ : Shape).Idx → BitVec 32) :
    (⟨1, ![4096]⟩ : Shape).Idx → EReal :=
  fun i => (Finset.univ : Finset (Fin 4096)).fold max (Ideal.ofBits .f32 0xFF800000#32)
    (fun j => apCand e lab (i 0) j)

/-- The hardest negative of each row: the minimum over the columns, from `+∞`. -/
def AN (e : (⟨2, ![4096, 2048]⟩ : Shape).Idx → EReal) (lab : (⟨1, ![4096]⟩ : Shape).Idx → BitVec 32) :
    (⟨1, ![4096]⟩ : Shape).Idx → EReal :=
  fun i => (Finset.univ : Finset (Fin 4096)).fold min (Ideal.ofBits .f32 0x7F800000#32)
    (fun j => anCand e lab (i 0) j)

/-! ## The similarity entry in its two printed forms -/

/-- The one-bit equality test of two words, read as an unsigned integer and converted: one or zero. -/
theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · simp [h]
  · simp [h]

/-- The same bit widened to 32 bits with zeros and read as a signed integer: still one or zero. -/
theorem sitofp_extui_cmpi_eq (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · subst h; simp
  · have hb : (a == b) = false := by simpa using h
    simp [hb, h]

theorem sim_eq_uitofp (lab : (⟨1, ![4096]⟩ : Shape).Idx → BitVec 32) (i j : Fin 4096) :
    FloatOps.uitofp (F := Ideal) .f32 (IntOp.cmpi .eq (lab (ix1 i)) (lab (ix1 j))) = sim lab i j :=
  uitofp_cmpi_eq _ _

theorem sim_eq_sitofp (lab : (⟨1, ![4096]⟩ : Shape).Idx → BitVec 32) (i j : Fin 4096) :
    FloatOps.sitofp (F := Ideal) .f32 ((IntOp.cmpi .eq (lab (ix1 i)) (lab (ix1 j))).setWidth 32) = sim lab i j :=
  sitofp_extui_cmpi_eq _ _

/-! ## The tail: from the two mined vectors to the two scalars -/

/-- The mean over the rows of `max 0 (MARGIN − (an − ap))`, the sum started from the constant zero. -/
def lossOf (ap an : (⟨1, ![4096]⟩ : Shape).Idx → EReal) : (⟨0, ![]⟩ : Shape).Idx → EReal :=
  Host.divf (F := Ideal) (φ := .f32)
    (Host.reduceAdd (F := Ideal) (φ := .f32) (axes := [0])
      (maximumf (F := Ideal) (φ := .f32)
        (broadcastInDim (⟨1, ![4096]⟩ : Shape) ![] (by decide)
          (constant (F := Ideal) (⟨0, ![]⟩ : Shape) .f32 0x00000000#32))
        (subf (F := Ideal) (φ := .f32)
          (broadcastInDim (⟨1, ![4096]⟩ : Shape) ![] (by decide)
            (constant (F := Ideal) (⟨0, ![]⟩ : Shape) .f32 0x3E99999A#32))
          (subf (F := Ideal) (φ := .f32) an ap)))
      (constant (F := Ideal) (⟨0, ![]⟩ : Shape) .f32 0x00000000#32) (by decide) (by decide))
    (constant (F := Ideal) (⟨0, ![]⟩ : Shape) .f32 0x45800000#32)

/-- The mean over the rows of the indicator of `an > ap`, the sum started from the constant zero. -/
def precOf (ap an : (⟨1, ![4096]⟩ : Shape).Idx → EReal) : (⟨0, ![]⟩ : Shape).Idx → EReal :=
  Host.divf (F := Ideal) (φ := .f32)
    (Host.reduceAdd (F := Ideal) (φ := .f32) (axes := [0])
      (uitofp (F := Ideal) .f32 (cmpf (F := Ideal) (φ := .f32) .ogt an ap))
      (constant (F := Ideal) (⟨0, ![]⟩ : Shape) .f32 0x00000000#32) (by decide) (by decide))
    (constant (F := Ideal) (⟨0, ![]⟩ : Shape) .f32 0x45800000#32)

/-- The loss. -/
def LOSS (e : (⟨2, ![4096, 2048]⟩ : Shape).Idx → EReal) (lab : (⟨1, ![4096]⟩ : Shape).Idx → BitVec 32) :
    (⟨0, ![]⟩ : Shape).Idx → EReal :=
  lossOf (AP e lab) (AN e lab)

/-- The precision. -/
def PREC (e : (⟨2, ![4096, 2048]⟩ : Shape).Idx → EReal) (lab : (⟨1, ![4096]⟩ : Shape).Idx → BitVec 32) :
    (⟨0, ![]⟩ : Shape).Idx → EReal :=
  precOf (AP e lab) (AN e lab)

/-- The maximum commutes: the tail with `max x 0` in place of `max 0 x` is the same loss. -/
theorem lossOf_comm (ap an : (⟨1, ![4096]⟩ : Shape).Idx → EReal) :
    Host.divf (F := Ideal) (φ := .f32)
      (Host.reduceAdd (F := Ideal) (φ := .f32) (axes := [0])
        (maximumf (F := Ideal) (φ := .f32)
          (subf (F := Ideal) (φ := .f32)
            (broadcastInDim (⟨1, ![4096]⟩ : Shape) ![] (by decide)
              (constant (F := Ideal) (⟨0, ![]⟩ : Shape) .f32 0x3E99999A#32))
            (subf (F := Ideal) (φ := .f32) an ap))
          (broadcastInDim (⟨1, ![4096]⟩ : Shape) ![] (by decide)
            (constant (F := Ideal) (⟨0, ![]⟩ : Shape) .f32 0x00000000#32)))
        (constant (F := Ideal) (⟨0, ![]⟩ : Shape) .f32 0x00000000#32) (by decide) (by decide))
      (constant (F := Ideal) (⟨0, ![]⟩ : Shape) .f32 0x45800000#32)
      = lossOf ap an := by
  unfold lossOf
  congr 2
  funext i
  exact max_comm _ _

/-! ## A row extremum over 4096 columns as four blocks of 1024 -/

/-- Column `q` of block `t`. -/
abbrev tileIx (t : Fin 4) (q : Fin 1024) : Fin 4096 := ⟨1024 * t.val + q.val, by omega⟩

/-- The maximum over all columns from `b` is the running maximum, from `b`, of the four block maxima, each
    itself taken from `b`: both sides are below `c` exactly when `b` and every entry are. -/
theorem fold_max_tiles (b : EReal) (f : Fin 4096 → EReal) :
    (Finset.univ : Finset (Fin 4096)).fold max b f
      = max (max (max (max b
          ((Finset.univ : Finset (Fin 1024)).fold max b (fun q => f (tileIx 0 q))))
          ((Finset.univ : Finset (Fin 1024)).fold max b (fun q => f (tileIx 1 q))))
          ((Finset.univ : Finset (Fin 1024)).fold max b (fun q => f (tileIx 2 q))))
          ((Finset.univ : Finset (Fin 1024)).fold max b (fun q => f (tileIx 3 q))) := by
  refine eq_of_forall_ge_iff fun c => ?_
  simp only [Finset.fold_max_le, max_le_iff, Finset.mem_univ, forall_const]
  constructor
  · rintro ⟨hb, hf⟩
    exact ⟨⟨⟨⟨hb, hb, fun q => hf _⟩, hb, fun q => hf _⟩, hb, fun q => hf _⟩, hb, fun q => hf _⟩
  · rintro ⟨⟨⟨⟨hb, _, h0⟩, _, h1⟩, _, h2⟩, _, h3⟩
    refine ⟨hb, fun j => ?_⟩
    by_cases c1 : j.val < 1024
    · have h := h0 ⟨j.val, c1⟩
      rwa [show tileIx 0 ⟨j.val, c1⟩ = j from Fin.ext (by simp)] at h
    · by_cases c2 : j.val < 2048
      · have h := h1 ⟨j.val - 1024, by omega⟩
        rwa [show tileIx 1 ⟨j.val - 1024, by omega⟩ = j from Fin.ext (by simp; omega)] at h
      · by_cases c3 : j.val < 3072
        · have h := h2 ⟨j.val - 2048, by omega⟩
          rwa [show tileIx 2 ⟨j.val - 2048, by omega⟩ = j from Fin.ext (by simp; omega)] at h
        · have h := h3 ⟨j.val - 3072, by omega⟩
          rwa [show tileIx 3 ⟨j.val - 3072, by omega⟩ = j from Fin.ext (by simp; omega)] at h

/-- The minimum likewise: both sides are above `c` exactly when `b` and every entry are. -/
theorem fold_min_tiles (b : EReal) (f : Fin 4096 → EReal) :
    (Finset.univ : Finset (Fin 4096)).fold min b f
      = min (min (min (min b
          ((Finset.univ : Finset (Fin 1024)).fold min b (fun q => f (tileIx 0 q))))
          ((Finset.univ : Finset (Fin 1024)).fold min b (fun q => f (tileIx 1 q))))
          ((Finset.univ : Finset (Fin 1024)).fold min b (fun q => f (tileIx 2 q))))
          ((Finset.univ : Finset (Fin 1024)).fold min b (fun q => f (tileIx 3 q))) := by
  refine eq_of_forall_le_iff fun c => ?_
  simp only [Finset.le_fold_min, le_min_iff, Finset.mem_univ, forall_const]
  constructor
  · rintro ⟨hb, hf⟩
    exact ⟨⟨⟨⟨hb, hb, fun q => hf _⟩, hb, fun q => hf _⟩, hb, fun q => hf _⟩, hb, fun q => hf _⟩
  · rintro ⟨⟨⟨⟨hb, _, h0⟩, _, h1⟩, _, h2⟩, _, h3⟩
    refine ⟨hb, fun j => ?_⟩
    by_cases c1 : j.val < 1024
    · have h := h0 ⟨j.val, c1⟩
      rwa [show tileIx 0 ⟨j.val, c1⟩ = j from Fin.ext (by simp)] at h
    · by_cases c2 : j.val < 2048
      · have h := h1 ⟨j.val - 1024, by omega⟩
        rwa [show tileIx 1 ⟨j.val - 1024, by omega⟩ = j from Fin.ext (by simp; omega)] at h
      · by_cases c3 : j.val < 3072
        · have h := h2 ⟨j.val - 2048, by omega⟩
          rwa [show tileIx 2 ⟨j.val - 2048, by omega⟩ = j from Fin.ext (by simp; omega)] at h
        · have h := h3 ⟨j.val - 3072, by omega⟩
          rwa [show tileIx 3 ⟨j.val - 3072, by omega⟩ = j from Fin.ext (by simp; omega)] at h

end Cert.Spec

end
-- ==== Proof.Value.Payloads.lean ====
/-
  The kernel body's tiles read entry by entry on the extended reals. At a grid point the body holds a block of 1024
  rows of the embedding (as a row block and as a column block), their squared norms as a column and as a row, and
  their labels as a column and as a row. Entry (p, q) of the distance tile is the root of the clamped
  ‖row p‖² + ‖row q‖² − 2·⟨row p, row q⟩, the inner product being the matrix unit's contraction of the two blocks
  over their second axis into a zero accumulator; entry (p, q) of the similarity tile is one where the two labels
  agree and zero elsewhere; the two candidate tiles are the distance less BIG·(1 − similarity) and BIG·similarity.
-/
import proofs.«177782_j12764642804226_1_alg».proof.Proof.Gen.KernelIdeal.Skeleton
import proofs.«177782_j12764642804226_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The two broadcasts of the body -/

/-- A column broadcast along the rows: entry (p, q) is the column's entry p. -/
theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The contraction -/

/-- The left operand is read at the output's row, on its first axis, -/
theorem lhs_dist_0 (i : S1024x1024.Idx) (k : dot_S1024x2048_S1024x2048_S1024x1024_1_1_0_0_n_n.contr.Idx) :
    (dot_S1024x2048_S1024x2048_S1024x1024_1_1_0_0_n_n.lhsIdx i k 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
/-- and at the contraction's coordinate on its second; -/
theorem lhs_dist_1 (i : S1024x1024.Idx) (k : dot_S1024x2048_S1024x2048_S1024x1024_1_1_0_0_n_n.contr.Idx) :
    (dot_S1024x2048_S1024x2048_S1024x1024_1_1_0_0_n_n.lhsIdx i k 1).val = (k ⟨0, by decide⟩).val :=
  dot_S1024x2048_S1024x2048_S1024x1024_1_1_0_0_n_n.lhsIdx_val_of_single rfl i k
/-- the right operand at the output's column, on its first axis, -/
theorem rhs_dist_0 (i : S1024x1024.Idx) (k : dot_S1024x2048_S1024x2048_S1024x1024_1_1_0_0_n_n.contr.Idx) :
    (dot_S1024x2048_S1024x2048_S1024x1024_1_1_0_0_n_n.rhsIdx i k 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- and at the contraction's coordinate on its second. -/
theorem rhs_dist_1 (i : S1024x1024.Idx) (k : dot_S1024x2048_S1024x2048_S1024x1024_1_1_0_0_n_n.contr.Idx) :
    (dot_S1024x2048_S1024x2048_S1024x1024_1_1_0_0_n_n.rhsIdx i k 1).val = (k ⟨0, by decide⟩).val :=
  dot_S1024x2048_S1024x2048_S1024x1024_1_1_0_0_n_n.rhsIdx_val_of_single rfl i k

/-- Entry (p, q) of the contraction of two row blocks over their second axis, into zero, is the inner product of
    row p of the first and row q of the second. -/
theorem gram_entry (x0 x1 : FVec Ideal S1024x2048 .bf16) (p q : Fin 1024) :
    matmul dot_S1024x2048_S1024x2048_S1024x1024_1_1_0_0_n_n none x0 x1 (constant (F := Ideal) S1024x1024 .f32 0x00000000#32) (ix2 p q)
      = ∑ k : Fin 2048, x0 (ix2 p k) * x1 (ix2 q k) := by
  simp only [matmul]
  rw [Ideal.matmul_constant_zero_apply,
    ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q)
      ((ValueIdx.contrEquiv1 dot_S1024x2048_S1024x2048_S1024x1024_1_1_0_0_n_n 2048 rfl rfl).symm k) = ix2 p k :=
    funext fun a => Fin.ext (by
      match a with
      | ⟨0, _⟩ => exact lhs_dist_0 _ _
      | ⟨1, _⟩ => exact (lhs_dist_1 _ _).trans hk)
  have er : dot_S1024x2048_S1024x2048_S1024x1024_1_1_0_0_n_n.rhsIdx (ix2 p q)
      ((ValueIdx.contrEquiv1 dot_S1024x2048_S1024x2048_S1024x1024_1_1_0_0_n_n 2048 rfl rfl).symm k) = ix2 q k :=
    funext fun a => Fin.ext (by
      match a with
      | ⟨0, _⟩ => exact rhs_dist_0 _ _
      | ⟨1, _⟩ => exact (rhs_dist_1 _ _).trans hk)
  rw [el, er]

/-! ## The tiles -/

/-- The distance tile at (p, q). -/
theorem pay5_entry (x0 x1 : Vec Ideal S1024x2048 .bf16) (x2 : Vec Ideal S1024x1 .f32) (x3 : Vec Ideal S1x1024 .f32) (p q : Fin 1024) :
    k0_pay5 (F := Ideal) x0 x1 x2 x3 (ValueIdx.ix2 p q)
      = Ideal.sqrt (max (Ideal.ofBits .f32 0x2B8CBCCC#32)
          ((x2 (ValueIdx.ix2 p (0 : Fin 1)) + x3 (ValueIdx.ix2 (0 : Fin 1) q))
            - Ideal.ofBits .f32 0x40000000#32 * ∑ k : Fin 2048, x0 (ValueIdx.ix2 p k) * x1 (ValueIdx.ix2 q k))) := by
  unfold k0_pay5
  simp only [shapeCast_self]
  show Ideal.sqrt (max (Ideal.ofBits .f32 0x2B8CBCCC#32)
      ((broadcastTo S1024x1024 x2 broadcasts_S1024x1_S1024x1024 (ix2 p q) + broadcastTo S1024x1024 x3 broadcasts_S1x1024_S1024x1024 (ix2 p q))
        - Ideal.ofBits .f32 0x40000000#32
          * matmul dot_S1024x2048_S1024x2048_S1024x1024_1_1_0_0_n_n none x0 x1 (constant (F := Ideal) S1024x1024 .f32 0x00000000#32) (ix2 p q))) = _
  rw [bcast_col x2 _ p q, broadcastTo_1b_ab_apply x3 _ p q, gram_entry x0 x1 p q]

/-- The similarity tile at (p, q). -/
theorem pay6_entry (x4 : Vec Ideal S1024x1 .i32) (x5 : Vec Ideal S1x1024 .i32) (p q : Fin 1024) :
    k0_pay6 (F := Ideal) x4 x5 (ValueIdx.ix2 p q)
      = if x4 (ValueIdx.ix2 p (0 : Fin 1)) = x5 (ValueIdx.ix2 (0 : Fin 1) q) then (1 : EReal) else 0 := by
  unfold k0_pay6
  simp only [shapeCast_self]
  show FloatOps.sitofp (F := Ideal) .f32
      ((IntOp.cmpi .eq (broadcastTo S1024x1024 x4 broadcasts_S1024x1_S1024x1024 (ix2 p q))
        (broadcastTo S1024x1024 x5 broadcasts_S1x1024_S1024x1024 (ix2 p q))).setWidth 32) = _
  rw [bcast_col x4 _ p q, broadcastTo_1b_ab_apply x5 _ p q]
  exact Cert.Spec.sitofp_extui_cmpi_eq _ _

/-- The penalty tile at (p, q): BIG where the labels agree. -/
theorem pay8_entry (x4 : Vec Ideal S1024x1 .i32) (x5 : Vec Ideal S1x1024 .i32) (p q : Fin 1024) :
    k0_pay8 (F := Ideal) x4 x5 (ValueIdx.ix2 p q)
      = Ideal.ofBits .f32 0x4B18967F#32
          * (if x4 (ValueIdx.ix2 p (0 : Fin 1)) = x5 (ValueIdx.ix2 (0 : Fin 1) q) then (1 : EReal) else 0) := by
  unfold k0_pay8
  show Ideal.ofBits .f32 0x4B18967F#32 * k0_pay6 (F := Ideal) x4 x5 (ix2 p q) = _
  rw [pay6_entry]

/-- The hardest-positive candidates at (p, q): the distance less BIG where the labels differ. -/
theorem pay7_entry (x0 x1 : Vec Ideal S1024x2048 .bf16) (x2 : Vec Ideal S1024x1 .f32) (x3 : Vec Ideal S1x1024 .f32)
    (x4 : Vec Ideal S1024x1 .i32) (x5 : Vec Ideal S1x1024 .i32) (p q : Fin 1024) :
    k0_pay7 (F := Ideal) x0 x1 x2 x3 x4 x5 (ValueIdx.ix2 p q)
      = Ideal.sqrt (max (Ideal.ofBits .f32 0x2B8CBCCC#32)
          ((x2 (ValueIdx.ix2 p (0 : Fin 1)) + x3 (ValueIdx.ix2 (0 : Fin 1) q))
            - Ideal.ofBits .f32 0x40000000#32 * ∑ k : Fin 2048, x0 (ValueIdx.ix2 p k) * x1 (ValueIdx.ix2 q k)))
        - Ideal.ofBits .f32 0x4B18967F#32
          * (Ideal.ofBits .f32 0x3F800000#32
            - (if x4 (ValueIdx.ix2 p (0 : Fin 1)) = x5 (ValueIdx.ix2 (0 : Fin 1) q) then (1 : EReal) else 0)) := by
  unfold k0_pay7
  show k0_pay5 (F := Ideal) x0 x1 x2 x3 (ix2 p q)
      - Ideal.ofBits .f32 0x4B18967F#32 * (Ideal.ofBits .f32 0x3F800000#32 - k0_pay6 (F := Ideal) x4 x5 (ix2 p q)) = _
  rw [pay5_entry, pay6_entry]

end Cert.KernelIdeal.Hand

end
-- ==== Proof.Value.Entries.lean ====
/-
  The three tiles of a grid point, entry by entry, over the extended reals. At the point with row tile `ti` and
  column tile `tj`, entry (p, q) of the distance tile is the clamped Euclidean distance of rows `1024·ti + p` and
  `1024·tj + q` of the embedding matrix; entry (p, q) of the penalty tile is `BIG` where those two rows carry the
  same label and zero elsewhere; entry (p, q) of the hardest-positive candidates is the distance less `BIG` where
  the labels differ. Three steps: what the operations before the region leave in the six arrays the region reads
  (the matrix itself, its squared row norms as a column and as a row, the labels as a column and as a row); each
  block of a point read at the array index its index map names; and the tiles' entries, from the blocks' entries.
-/
import proofs.«177782_j12764642804226_1_alg».proof.Proof.KI.AccDefs
import proofs.«177782_j12764642804226_1_alg».proof.Proof.Spec
import proofs.«177782_j12764642804226_1_alg».proof.Proof.Value.Payloads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

variable (m : (ℓ : Loc nD τ sig) → Buf (Elt Ideal) ℓ) (ρ : Dev nD → PrngReg)

/-- The embedding matrix and the labels as the launch holds them. -/
abbrev embOf (c : Dev nD) : FVec Ideal S4096x2048 .f32 := m ((c : Thread nD τ).loc main_arg0)
abbrev labOf (c : Dev nD) : IVec S4096 32 := m ((c : Thread nD τ).loc main_arg1)

/-! ## What the region finds in the windowed arrays -/

/-- The narrowed copy of the embedding matrix. -/
theorem V_v0 (c : Dev nD) : V m c main_v0 = (truncf .bf16 (embOf m c) bitsLt_bf16_f32 : FVec Ideal S4096x2048 .bf16) := by
  show StableHlo.after hostOps0 (fun b => m (c, b)) (Proc.devRef .tc main_v0) = _
  after_results

/-- The squared norms as a column: the row sums of the entrywise square, from the constant zero, broadcast along a unit axis. -/
theorem V_v3 (c : Dev nD) : V m c main_v3
    = (broadcastInDim S4096x1 ![0] bcast_S4096_S4096x1_0
        (Host.reduceAdd (F := Ideal) (mulf (embOf m c) (embOf m c)) (constant (F := Ideal) S_ .f32 0x00000000#32) reducesTo_S4096x2048_S4096_d1 h_S_) : FVec Ideal S4096x1 .f32) := by
  show StableHlo.after hostOps0 (fun b => m (c, b)) (Proc.devRef .tc main_v3) = _
  after_results

/-- The squared norms as a row: the column reshaped. -/
theorem V_v4 (c : Dev nD) : V m c main_v4
    = (shapeCast S1x4096 (V m c main_v3 : FVec Ideal S4096x1 .f32) shapeCasts_S4096x1_S1x4096 : FVec Ideal S1x4096 .f32) := by
  show StableHlo.after hostOps0 (fun b => m (c, b)) (Proc.devRef .tc main_v4) = shapeCast S1x4096 (StableHlo.after hostOps0 (fun b => m (c, b)) (Proc.devRef .tc main_v3)) _
  after_results; rfl

/-- The labels as a column. -/
theorem V_v5 (c : Dev nD) : V m c main_v5 = (shapeCast S4096x1 (labOf m c) shapeCasts_S4096_S4096x1 : IVec S4096x1 32) := by
  show StableHlo.after hostOps0 (fun b => m (c, b)) (Proc.devRef .tc main_v5) = _
  after_results; rfl

/-- The labels as a row. -/
theorem V_v6 (c : Dev nD) : V m c main_v6 = (shapeCast S1x4096 (labOf m c) shapeCasts_S4096_S1x4096 : IVec S1x4096 32) := by
  show StableHlo.after hostOps0 (fun b => m (c, b)) (Proc.devRef .tc main_v6) = _
  after_results; rfl

/-! ## The same arrays read at an index -/

/-- Narrowing changes no entry of the ideal values. -/
theorem V_v0_apply (c : Dev nD) (i : S4096x2048.Idx) : (V m c main_v0 : FVec Ideal S4096x2048 .bf16) i = embOf m c i :=
  congrFun (V_v0 m c) i

/-- The column of squared norms at row `i`. -/
theorem V_v3_apply (c : Dev nD) (i : Fin 4096) (z : Fin 1) :
    (V m c main_v3 : FVec Ideal S4096x1 .f32) (ix2 i z) = Cert.Spec.sq (embOf m c) i := by
  refine (congrFun (V_v3 m c) (ix2 i z)).trans ?_
  refine (broadcastInDim_apply ![0] bcast_S4096_S4096x1_0 _ (ix2 i z) (ix1 i) (fun a => ?_)).trans ?_
  · match a with
    | ⟨0, _⟩ => rfl
  · simp only [Host.reduceAdd, Ideal.hostReduceAdd_def]
    rw [Ideal.hostReduceAdd_single reducesTo_S4096x2048_S4096_d1 (by decide)]
    unfold Cert.Spec.sq
    refine congrArg₂ (· + ·) rfl (Finset.sum_congr rfl fun k _ => ?_)
    have hi : (by decide : Shape.Reduces S4096x2048 [1] S4096).lift (ix1 i) k = ix2 i k :=
      funext fun a => Fin.ext (by match a with | ⟨0, _⟩ => rfl | ⟨1, _⟩ => rfl)
    rw [hi]; rfl

/-- The row of squared norms at column `j`. -/
theorem V_v4_apply (c : Dev nD) (z : Fin 1) (j : Fin 4096) :
    (V m c main_v4 : FVec Ideal S1x4096 .f32) (ix2 z j) = Cert.Spec.sq (embOf m c) j := by
  refine (congrFun (V_v4 m c) (ix2 z j)).trans ?_
  refine (shapeCast_apply _ shapeCasts_S4096x1_S1x4096 (ix2 z j) (ix2 j (0 : Fin 1)) ?_).trans (V_v3_apply m c j 0)
  rw [Shape.rowMajor_val_two, Shape.rowMajor_val_two]
  show j.val * 1 + 0 = z.val * 4096 + j.val
  omega

/-- The label column at row `i`. -/
theorem V_v5_apply (c : Dev nD) (i : Fin 4096) (z : Fin 1) :
    (V m c main_v5 : IVec S4096x1 32) (ix2 i z) = labOf m c (ix1 i) := by
  refine (congrFun (V_v5 m c) (ix2 i z)).trans ?_
  refine shapeCast_apply _ shapeCasts_S4096_S4096x1 (ix2 i z) (ix1 i) ?_
  rw [Shape.rowMajor_val_one, Shape.rowMajor_val_two]
  show i.val = i.val * 1 + z.val
  omega

/-- The label row at column `j`. -/
theorem V_v6_apply (c : Dev nD) (z : Fin 1) (j : Fin 4096) :
    (V m c main_v6 : IVec S1x4096 32) (ix2 z j) = labOf m c (ix1 j) := by
  refine (congrFun (V_v6 m c) (ix2 z j)).trans ?_
  exact shapeCast_a_1a_apply _ shapeCasts_S4096_S1x4096 z j

/-! ## The windows' index maps over the grid

Windows 0, 2 and 4 follow the row tile (the outer grid coordinate), windows 1, 3 and 5 the column tile (the inner one);
the other axis of each is not cut. -/

theorem input_index_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4 :=
  (by decide +kernel : ∀ t : Fin grid0.N, _)

/-! ## Each input block read where its index map says -/

/-- Row `p` of the row tile's block of the narrowed matrix is row `1024·ti + p` of the embedding matrix. -/
theorem iblk0_apply (c : Dev nD) (ti tj : Fin 4) (p : Fin 1024) (k : Fin 2048) :
    (iblk m c 0 (pt ti tj) : Vec Ideal S1024x2048 .bf16) (ix2 p k) = embOf m c (ix2 (Cert.Spec.tileIx ti p) k) := by
  refine Eq.trans ?_ (V_v0_apply m c _)
  show V m c main_v0 (((cfg0.win 0).blk (pt ti tj)).view.emb (ix2 p k)) = V m c main_v0 (ix2 (Cert.Spec.tileIx ti p) k)
  refine congrArg _ (funext fun a => Fin.ext ?_)
  obtain ⟨e0, e1, -⟩ := input_index_facts (pt ti tj)
  have hp : (pt ti tj).val = 4 * ti.val + tj.val := rfl
  match a with
  | ⟨0, _⟩ => show win0_0.index (pt ti tj) (0 : Fin 2) * 1024 + 1 * p.val = 1024 * ti.val + p.val; omega
  | ⟨1, _⟩ => show win0_0.index (pt ti tj) (1 : Fin 2) * 2048 + 1 * k.val = k.val; omega

/-- Row `q` of the column tile's block of the narrowed matrix is row `1024·tj + q` of the embedding matrix. -/
theorem iblk1_apply (c : Dev nD) (ti tj : Fin 4) (q : Fin 1024) (k : Fin 2048) :
    (iblk m c 1 (pt ti tj) : Vec Ideal S1024x2048 .bf16) (ix2 q k) = embOf m c (ix2 (Cert.Spec.tileIx tj q) k) := by
  refine Eq.trans ?_ (V_v0_apply m c _)
  show V m c main_v0 (((cfg0.win 1).blk (pt ti tj)).view.emb (ix2 q k)) = V m c main_v0 (ix2 (Cert.Spec.tileIx tj q) k)
  refine congrArg _ (funext fun a => Fin.ext ?_)
  obtain ⟨-, -, e0, e1, -⟩ := input_index_facts (pt ti tj)
  have hp : (pt ti tj).val = 4 * ti.val + tj.val := rfl
  match a with
  | ⟨0, _⟩ => show win0_1.index (pt ti tj) (0 : Fin 2) * 1024 + 1 * q.val = 1024 * tj.val + q.val; omega
  | ⟨1, _⟩ => show win0_1.index (pt ti tj) (1 : Fin 2) * 2048 + 1 * k.val = k.val; omega

/-- The row tile's block of the column of squared norms. -/
theorem iblk2_apply (c : Dev nD) (ti tj : Fin 4) (p : Fin 1024) (z : Fin 1) :
    (iblk m c 2 (pt ti tj) : Vec Ideal S1024x1 .f32) (ix2 p z) = Cert.Spec.sq (embOf m c) (Cert.Spec.tileIx ti p) := by
  refine Eq.trans ?_ (V_v3_apply m c (Cert.Spec.tileIx ti p) z)
  show V m c main_v3 (((cfg0.win 2).blk (pt ti tj)).view.emb (ix2 p z)) = V m c main_v3 (ix2 (Cert.Spec.tileIx ti p) z)
  refine congrArg _ (funext fun a => Fin.ext ?_)
  obtain ⟨-, -, -, -, e0, e1, -⟩ := input_index_facts (pt ti tj)
  have hp : (pt ti tj).val = 4 * ti.val + tj.val := rfl
  match a with
  | ⟨0, _⟩ => show win0_2.index (pt ti tj) (0 : Fin 2) * 1024 + 1 * p.val = 1024 * ti.val + p.val; omega
  | ⟨1, _⟩ => show win0_2.index (pt ti tj) (1 : Fin 2) * 1 + 1 * z.val = z.val; omega

/-- The column tile's block of the row of squared norms. -/
theorem iblk3_apply (c : Dev nD) (ti tj : Fin 4) (z : Fin 1) (q : Fin 1024) :
    (iblk m c 3 (pt ti tj) : Vec Ideal S1x1024 .f32) (ix2 z q) = Cert.Spec.sq (embOf m c) (Cert.Spec.tileIx tj q) := by
  refine Eq.trans ?_ (V_v4_apply m c z (Cert.Spec.tileIx tj q))
  show V m c main_v4 (((cfg0.win 3).blk (pt ti tj)).view.emb (ix2 z q)) = V m c main_v4 (ix2 z (Cert.Spec.tileIx tj q))
  refine congrArg _ (funext fun a => Fin.ext ?_)
  obtain ⟨-, -, -, -, -, -, e0, e1, -⟩ := input_index_facts (pt ti tj)
  have hp : (pt ti tj).val = 4 * ti.val + tj.val := rfl
  match a with
  | ⟨0, _⟩ => show win0_3.index (pt ti tj) (0 : Fin 2) * 1 + 1 * z.val = z.val; omega
  | ⟨1, _⟩ => show win0_3.index (pt ti tj) (1 : Fin 2) * 1024 + 1 * q.val = 1024 * tj.val + q.val; omega

/-- The row tile's block of the label column. -/
theorem iblk4_apply (c : Dev nD) (ti tj : Fin 4) (p : Fin 1024) (z : Fin 1) :
    (iblk m c 4 (pt ti tj) : Vec Ideal S1024x1 .i32) (ix2 p z) = labOf m c (ix1 (Cert.Spec.tileIx ti p)) := by
  refine Eq.trans ?_ (V_v5_apply m c (Cert.Spec.tileIx ti p) z)
  show V m c main_v5 (((cfg0.win 4).blk (pt ti tj)).view.emb (ix2 p z)) = V m c main_v5 (ix2 (Cert.Spec.tileIx ti p) z)
  refine congrArg _ (funext fun a => Fin.ext ?_)
  obtain ⟨-, -, -, -, -, -, -, -, e0, e1, -⟩ := input_index_facts (pt ti tj)
  have hp : (pt ti tj).val = 4 * ti.val + tj.val := rfl
  match a with
  | ⟨0, _⟩ => show win0_4.index (pt ti tj) (0 : Fin 2) * 1024 + 1 * p.val = 1024 * ti.val + p.val; omega
  | ⟨1, _⟩ => show win0_4.index (pt ti tj) (1 : Fin 2) * 1 + 1 * z.val = z.val; omega

/-- The column tile's block of the label row. -/
theorem iblk5_apply (c : Dev nD) (ti tj : Fin 4) (z : Fin 1) (q : Fin 1024) :
    (iblk m c 5 (pt ti tj) : Vec Ideal S1x1024 .i32) (ix2 z q) = labOf m c (ix1 (Cert.Spec.tileIx tj q)) := by
  refine Eq.trans ?_ (V_v6_apply m c z (Cert.Spec.tileIx tj q))
  show V m c main_v6 (((cfg0.win 5).blk (pt ti tj)).view.emb (ix2 z q)) = V m c main_v6 (ix2 z (Cert.Spec.tileIx tj q))
  refine congrArg _ (funext fun a => Fin.ext ?_)
  obtain ⟨-, -, -, -, -, -, -, -, -, -, e0, e1⟩ := input_index_facts (pt ti tj)
  have hp : (pt ti tj).val = 4 * ti.val + tj.val := rfl
  match a with
  | ⟨0, _⟩ => show win0_5.index (pt ti tj) (0 : Fin 2) * 1 + 1 * z.val = z.val; omega
  | ⟨1, _⟩ => show win0_5.index (pt ti tj) (1 : Fin 2) * 1024 + 1 * q.val = 1024 * tj.val + q.val; omega

/-! ## The tiles' entries -/

/-- The inner product of the two blocks' rows is the inner product of the matrix's rows. -/
theorem dot_blocks (c : Dev nD) (ti tj : Fin 4) (p q : Fin 1024) (x0 x1 : Vec Ideal S1024x2048 .bf16)
    (h0 : x0 = iblk m c 0 (pt ti tj)) (h1 : x1 = iblk m c 1 (pt ti tj)) :
    (∑ k : Fin 2048, x0 (ix2 p k) * x1 (ix2 q k))
      = Cert.Spec.dot (embOf m c) (Cert.Spec.tileIx ti p) (Cert.Spec.tileIx tj q) := by
  subst h0 h1
  exact Finset.sum_congr rfl fun k _ => by
    rw [iblk0_apply m c ti tj p k, iblk1_apply m c ti tj q k] <;> rfl

/-- The penalty tile: `BIG` where the two rows' labels agree, zero elsewhere. -/
theorem cand36_entry (c : Dev nD) (ti tj : Fin 4) (p q : Fin 1024) :
    cand36 (F := Ideal) m c (pt ti tj) (ValueIdx.ix2 p q)
      = Ideal.ofBits .f32 0x4B18967F#32 * Cert.Spec.sim (m ((c : Thread nD τ).loc main_arg1)) (Cert.Spec.tileIx ti p) (Cert.Spec.tileIx tj q) := by
  unfold cand36
  refine (pay8_entry _ _ p q).trans ?_
  rw [iblk4_apply m c ti tj p 0, iblk5_apply m c ti tj 0 q]
  rfl

/-- The distance tile: the clamped Euclidean distance of row `1024·ti + p` and row `1024·tj + q`. -/
theorem cand20_entry (c : Dev nD) (ti tj : Fin 4) (p q : Fin 1024) :
    cand20 (F := Ideal) m c (pt ti tj) (ValueIdx.ix2 p q)
      = Cert.Spec.dist (m ((c : Thread nD τ).loc main_arg0)) (Cert.Spec.tileIx ti p) (Cert.Spec.tileIx tj q) := by
  unfold cand20
  refine (pay5_entry _ _ _ _ p q).trans ?_
  rw [iblk2_apply m c ti tj p 0, iblk3_apply m c ti tj 0 q, dot_blocks m c ti tj p q _ _ rfl rfl]
  rfl

/-- The hardest-positive candidates: the distance, less `BIG` where the labels differ. -/
theorem cand7_entry (c : Dev nD) (ti tj : Fin 4) (p q : Fin 1024) :
    cand7 (F := Ideal) m c (pt ti tj) (ValueIdx.ix2 p q)
      = Cert.Spec.apCand (m ((c : Thread nD τ).loc main_arg0)) (m ((c : Thread nD τ).loc main_arg1)) (Cert.Spec.tileIx ti p) (Cert.Spec.tileIx tj q) := by
  unfold cand7
  refine (pay7_entry _ _ _ _ _ _ p q).trans ?_
  rw [iblk2_apply m c ti tj p 0, iblk3_apply m c ti tj 0 q, dot_blocks m c ti tj p q _ _ rfl rfl,
    iblk4_apply m c ti tj p 0, iblk5_apply m c ti tj 0 q]
  rfl

end Cert.KernelIdeal.Hand

end
-- ==== Proof.Value.Fold.lean ====
/-
  The two running extrema of a row tile, entry by entry. One update of the running maximum takes, in each of the
  tile's 1024 rows, the larger of the value carried so far and the maximum of that row of the candidate tile over
  its 1024 columns (started from −∞); the running minimum likewise with the smaller, the row minimum started from
  +∞, the candidates being the distance plus the penalty. Started from the reset values −∞ / +∞ and applied over
  the four column tiles in order, row `p` of the result is the nested maximum (minimum) of the four block
  extrema: the right-hand side of the specification's splitting of a row extremum into four blocks.
-/
import proofs.«177782_j12764642804226_1_alg».proof.Proof.KI.AccDefs
import proofs.«177782_j12764642804226_1_alg».proof.Proof.Spec
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "NEG" => Ideal.ofBits FTy.f32 0xFF800000#32
local notation "POS" => Ideal.ofBits FTy.f32 0x7F800000#32

/-! ## Layout and reduction, read at an index -/

/-- A vector `[n]` cast to a column `[n, 1]` reads, at `(p, u)`, the vector at `p`: the row-major positions are
    `p` and `p · 1 + u` with `u = 0`. -/
theorem shapeCast_vec_col_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ValueIdx.ix2 p u) = x (ValueIdx.ix1 p) :=
  shapeCast_apply x h _ _ (by
    have hu : u.val = 0 := by omega
    rw [Shape.rowMajor_val_two, Shape.rowMajor_val_one]
    show p.val = p.val * 1 + u.val
    omega)

/-- The source index of the row reduction over result index `p` with column `q` inserted is `(p, q)`. -/
theorem lift_row (p q : Fin 1024) :
    reduces_S1024x1024_S1024.lift (ValueIdx.ix1 p) q = ValueIdx.ix2 p q := by
  funext c
  apply Fin.ext
  match c with
  | ⟨0, _⟩ => rfl
  | ⟨1, _⟩ => rfl

/-- A minimum-reduction over one axis at the ideal values: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row maximum of a 1024 × 1024 tile at row `p`: the fold of `max` from −∞ over the row's entries. -/
theorem rowMax_apply (v : FVec Ideal S1024x1024 .f32) (p : Fin 1024) :
    multiReduction (F := Ideal) .maximumf [1] S1024 v 0xFF800000#32 reduces_S1024x1024_S1024 (.inl rfl) rfl (ValueIdx.ix1 p)
      = (Finset.univ : Finset (Fin 1024)).fold max NEG (fun q => v (ValueIdx.ix2 p q)) := by
  refine (Ideal.multiReduction_maximumf_single v 0xFF800000#32 reduces_S1024x1024_S1024 (.inl rfl) rfl (ValueIdx.ix1 p)).trans ?_
  have e : (v ∘ reduces_S1024x1024_S1024.lift (ValueIdx.ix1 p)) = fun q : Fin 1024 => v (ValueIdx.ix2 p q) :=
    funext fun q => congrArg v (lift_row p q)
  rw [e]; rfl

/-- The row minimum likewise, from +∞. -/
theorem rowMin_apply (v : FVec Ideal S1024x1024 .f32) (p : Fin 1024) :
    multiReduction (F := Ideal) .minimumf [1] S1024 v 0x7F800000#32 reduces_S1024x1024_S1024 (.inl rfl) rfl (ValueIdx.ix1 p)
      = (Finset.univ : Finset (Fin 1024)).fold min POS (fun q => v (ValueIdx.ix2 p q)) := by
  refine (multiReduction_minimumf_single v 0x7F800000#32 reduces_S1024x1024_S1024 (.inl rfl) rfl (ValueIdx.ix1 p)).trans ?_
  have e : (v ∘ reduces_S1024x1024_S1024.lift (ValueIdx.ix1 p)) = fun q : Fin 1024 => v (ValueIdx.ix2 p q) :=
    funext fun q => congrArg v (lift_row p q)
  rw [e]; rfl

/-! ## The payloads at an index -/

/-- The reset value of the running maximum is −∞ in every row. -/
theorem pay3_apply (j : S1024x1.Idx) : (k0_pay3 (F := Ideal)) j = NEG := by
  show shapeCast S1024x1 (broadcast S1024x1 (Scalar.ofBits (F := Ideal) .f32 0xFF800000#32)) shapeCasts_S1024x1_S1024x1 j = _
  rw [shapeCast_self]; rfl

/-- The reset value of the running minimum is +∞ in every row. -/
theorem pay4_apply (j : S1024x1.Idx) : (k0_pay4 (F := Ideal)) j = POS := by
  show shapeCast S1024x1 (broadcast S1024x1 (Scalar.ofBits (F := Ideal) .f32 0x7F800000#32)) shapeCasts_S1024x1_S1024x1 j = _
  rw [shapeCast_self]; rfl

/-- One update of the running maximum, at row `p`: the larger of the carried value and the row's maximum. -/
theorem pay1_apply (v34 : FVec Ideal S1024x1024 .f32) (v38 : FVec Ideal S1024x1 .f32) (p : Fin 1024) :
    k0_pay1 v34 v38 (ValueIdx.ix2 p (0 : Fin 1))
      = max (v38 (ValueIdx.ix2 p (0 : Fin 1)))
          ((Finset.univ : Finset (Fin 1024)).fold max NEG (fun q => v34 (ValueIdx.ix2 p q))) := by
  show shapeCast S1024x1 (maximumf v38 (shapeCast S1024x1
      (multiReduction (F := Ideal) .maximumf [1] S1024 v34 0xFF800000#32 reduces_S1024x1024_S1024 (.inl rfl) rfl)
      shapeCasts_S1024_S1024x1)) shapeCasts_S1024x1_S1024x1 (ValueIdx.ix2 p (0 : Fin 1)) = _
  rw [shapeCast_self, ValueIdx.maximumf_apply, shapeCast_vec_col_apply, rowMax_apply]

/-- One update of the running minimum, at row `p`: the smaller of the carried value and the row's minimum of the
    sum of the two tiles. -/
theorem pay2_apply (v20 v36 : FVec Ideal S1024x1024 .f32) (v45 : FVec Ideal S1024x1 .f32) (p : Fin 1024) :
    k0_pay2 v20 v36 v45 (ValueIdx.ix2 p (0 : Fin 1))
      = min (v45 (ValueIdx.ix2 p (0 : Fin 1)))
          ((Finset.univ : Finset (Fin 1024)).fold min POS
            (fun q => v20 (ValueIdx.ix2 p q) + v36 (ValueIdx.ix2 p q))) := by
  show shapeCast S1024x1 (minimumf v45 (shapeCast S1024x1
      (multiReduction (F := Ideal) .minimumf [1] S1024 (addf v20 v36) 0x7F800000#32 reduces_S1024x1024_S1024 (.inl rfl) rfl)
      shapeCasts_S1024_S1024x1)) shapeCasts_S1024x1_S1024x1 (ValueIdx.ix2 p (0 : Fin 1)) = _
  rw [shapeCast_self, ValueIdx.minimumf_apply, shapeCast_vec_col_apply, rowMin_apply]
  rfl

/-! ## The four updates of a row tile -/

/-- Row `p` of the running maximum of row tile `ti` after its four column tiles. -/
theorem acc6_fold (m : (ℓ : Loc nD τ sig) → Buf (Elt Ideal) ℓ) (c : Dev nD) (ti : Fin 4) (p : Fin 1024) :
    acc6 (F := Ideal) m c ti (ValueIdx.ix2 p (0 : Fin 1))
      = max (max (max (max NEG
          ((Finset.univ : Finset (Fin 1024)).fold max NEG (fun q => cand7 (F := Ideal) m c (pt ti 0) (ValueIdx.ix2 p q))))
          ((Finset.univ : Finset (Fin 1024)).fold max NEG (fun q => cand7 (F := Ideal) m c (pt ti 1) (ValueIdx.ix2 p q))))
          ((Finset.univ : Finset (Fin 1024)).fold max NEG (fun q => cand7 (F := Ideal) m c (pt ti 2) (ValueIdx.ix2 p q))))
          ((Finset.univ : Finset (Fin 1024)).fold max NEG (fun q => cand7 (F := Ideal) m c (pt ti 3) (ValueIdx.ix2 p q))) := by
  unfold acc6
  rw [pay1_apply, pay1_apply, pay1_apply, pay1_apply, pay3_apply]

/-- Row `p` of the running minimum of row tile `ti` after its four column tiles. -/
theorem acc7_fold (m : (ℓ : Loc nD τ sig) → Buf (Elt Ideal) ℓ) (c : Dev nD) (ti : Fin 4) (p : Fin 1024) :
    acc7 (F := Ideal) m c ti (ValueIdx.ix2 p (0 : Fin 1))
      = min (min (min (min POS
          ((Finset.univ : Finset (Fin 1024)).fold min POS
            (fun q => cand20 (F := Ideal) m c (pt ti 0) (ValueIdx.ix2 p q) + cand36 (F := Ideal) m c (pt ti 0) (ValueIdx.ix2 p q))))
          ((Finset.univ : Finset (Fin 1024)).fold min POS
            (fun q => cand20 (F := Ideal) m c (pt ti 1) (ValueIdx.ix2 p q) + cand36 (F := Ideal) m c (pt ti 1) (ValueIdx.ix2 p q))))
          ((Finset.univ : Finset (Fin 1024)).fold min POS
            (fun q => cand20 (F := Ideal) m c (pt ti 2) (ValueIdx.ix2 p q) + cand36 (F := Ideal) m c (pt ti 2) (ValueIdx.ix2 p q))))
          ((Finset.univ : Finset (Fin 1024)).fold min POS
            (fun q => cand20 (F := Ideal) m c (pt ti 3) (ValueIdx.ix2 p q) + cand36 (F := Ideal) m c (pt ti 3) (ValueIdx.ix2 p q))) := by
  unfold acc7
  rw [pay2_apply, pay2_apply, pay2_apply, pay2_apply, pay4_apply]

end Cert.KernelIdeal.Hand

end
-- ==== Proof.Value.Tail.lean ====
/-
  The scalars after the region, read off any contents of the two mined columns: the nineteen host operations
  after the region flatten each column [4096, 1] to a vector [4096], and what they then compute from the two
  vectors is the mean hinge loss and the mean indicator of the specification.
-/
import proofs.«177782_j12764642804226_1_alg».proof.Proof.Gen.KernelIdeal.Launch
import proofs.«177782_j12764642804226_1_alg».proof.Proof.Spec
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

/-- A column `[n, 1]` flattened to a vector `[n]` reads, at `i`, the column's entry `(i, 0)`: the two have the
    same row-major position, `i · 1 + 0 = i`. -/
theorem shapeCast_col_flat_apply {α : Type} {n : ℕ} (x : (⟨2, ![n, 1]⟩ : Shape).Idx → α)
    (h : (⟨2, ![n, 1]⟩ : Shape).ShapeCasts ⟨1, ![n]⟩) (i : (⟨1, ![n]⟩ : Shape).Idx) :
    shapeCast ⟨1, ![n]⟩ x h i = x (ValueIdx.ix2 (i 0) (0 : Fin 1)) :=
  shapeCast_apply x h _ _ (by
    rw [Shape.rowMajor_val_two, Shape.rowMajor_val_one]
    show (i 0).val * 1 + 0 = (i 0).val
    omega)

/-- The flattened column as a function of the vector index. -/
theorem flat_col (x : S4096x1.Idx → EReal) :
    (fun i => shapeCast S4096 x shapeCasts_S4096x1_S4096 i)
      = fun i : S4096.Idx => x (ValueIdx.ix2 (i 0) (0 : Fin 1)) :=
  funext fun i => shapeCast_col_flat_apply x _ i

/-- The loss after the region is the specification's mean hinge of the two mined columns. -/
theorem tail16 (W : Valuation τ sig (Elt Ideal)) :
    StableHlo.after (hostOps1 (F := Ideal)) W (Proc.devRef .tc main_v16)
      = Cert.Spec.lossOf (fun i => W (Proc.devRef .tc main_v7_0) (ValueIdx.ix2 (i 0) (0 : Fin 1)))
          (fun i => W (Proc.devRef .tc main_v7_1) (ValueIdx.ix2 (i 0) (0 : Fin 1))) := by
  after_results
  exact congrArg₂ Cert.Spec.lossOf (flat_col (W (Proc.devRef .tc main_v7_0))) (flat_col (W (Proc.devRef .tc main_v7_1)))

/-- The precision after the region is the specification's mean indicator of the two mined columns. -/
theorem tail20 (W : Valuation τ sig (Elt Ideal)) :
    StableHlo.after (hostOps1 (F := Ideal)) W (Proc.devRef .tc main_v20)
      = Cert.Spec.precOf (fun i => W (Proc.devRef .tc main_v7_0) (ValueIdx.ix2 (i 0) (0 : Fin 1)))
          (fun i => W (Proc.devRef .tc main_v7_1) (ValueIdx.ix2 (i 0) (0 : Fin 1))) := by
  after_results
  exact congrArg₂ Cert.Spec.precOf (flat_col (W (Proc.devRef .tc main_v7_0))) (flat_col (W (Proc.devRef .tc main_v7_1)))

end Cert.KernelIdeal.Hand

end
-- ==== Proof.Value.Kernel.lean ====
/-
  The kernel's two results over the extended reals are the specification's: each row of the first result array is
  the row maximum of the hardest-positive candidates (the four tile maxima folded from −∞ are the maximum over all
  4096 columns), each row of the second the row minimum of the hardest-negative candidates, and the host operations
  after the region are the specification's tail applied to those two vectors.
-/
import proofs.«177782_j12764642804226_1_alg».proof.Proof.KI.Run
import proofs.«177782_j12764642804226_1_alg».proof.Proof.KI.Acc
import proofs.«177782_j12764642804226_1_alg».proof.Proof.KI.Final
import proofs.«177782_j12764642804226_1_alg».proof.Proof.Value.Entries
import proofs.«177782_j12764642804226_1_alg».proof.Proof.Value.Fold
import proofs.«177782_j12764642804226_1_alg».proof.Proof.Value.Tail
import proofs.«177782_j12764642804226_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx

/-- Row `i` is position `i % 1024` of row tile `i / 1024`. -/
theorem tileIx_tile (i : Fin 4096) : Cert.Spec.tileIx (tileOf i) (inTile i) = i :=
  Fin.ext (by simp only [Cert.Spec.tileIx, tileOf, inTile]; omega)

/-- Each row of the first result array is the specification's hardest positive of that row. -/
theorem row6 (c : Dev nD) (i : Fin 4096) :
    ((dats m 0 c).arrAt 6 cfg0.N : Vec Ideal S4096x1 .f32) (ix2 i (0 : Fin 1))
      = Cert.Spec.AP (m ((c : Thread nD τ).loc main_arg0)) (m ((c : Thread nD τ).loc main_arg1)) (ix1 i) := by
  rw [final6_of m c (outs6 m c) i, acc6_fold]
  simp only [cand7_entry, tileIx_tile]
  exact (Cert.Spec.fold_max_tiles _ (fun j => Cert.Spec.apCand (m ((c : Thread nD τ).loc main_arg0)) (m ((c : Thread nD τ).loc main_arg1)) i j)).symm

/-- Each row of the second result array is the specification's hardest negative of that row. -/
theorem row7 (c : Dev nD) (i : Fin 4096) :
    ((dats m 0 c).arrAt 7 cfg0.N : Vec Ideal S4096x1 .f32) (ix2 i (0 : Fin 1))
      = Cert.Spec.AN (m ((c : Thread nD τ).loc main_arg0)) (m ((c : Thread nD τ).loc main_arg1)) (ix1 i) := by
  rw [final7_of m c (outs7 m c) i, acc7_fold]
  simp only [cand20_entry, cand36_entry, tileIx_tile]
  exact (Cert.Spec.fold_min_tiles _ (fun j => Cert.Spec.anCand (m ((c : Thread nD τ).loc main_arg0)) (m ((c : Thread nD τ).loc main_arg1)) i j)).symm

/-- The first result is the specification's loss. -/
theorem kernel_loss (c : Dev nD) :
    StableHlo.after (hostOps1 (F := Ideal)) (exitVal m (dats m) c) (Proc.devRef .tc main_v16)
      = Cert.Spec.LOSS (m ((c : Thread nD τ).loc main_arg0)) (m ((c : Thread nD τ).loc main_arg1)) := by
  rw [tail16, exitVal_out6, exitVal_out7]
  unfold Cert.Spec.LOSS
  congr 1
  · funext i; exact row6 m c (i 0)
  · funext i; exact row7 m c (i 0)

/-- The second result is the specification's precision. -/
theorem kernel_prec (c : Dev nD) :
    StableHlo.after (hostOps1 (F := Ideal)) (exitVal m (dats m) c) (Proc.devRef .tc main_v20)
      = Cert.Spec.PREC (m ((c : Thread nD τ).loc main_arg0)) (m ((c : Thread nD τ).loc main_arg1)) := by
  rw [tail20, exitVal_out6, exitVal_out7]
  unfold Cert.Spec.PREC
  congr 1
  · funext i; exact row6 m c (i 0)
  · funext i; exact row7 m c (i 0)

/-- The idealized kernel's run with both results at the specification's values. -/
theorem run_spec : θ_run defs (onTc (τ := τ) (main (F := Ideal))) ⟨m, fun _ => 0, ρ⟩ (fun r => ∀ c : Dev nD,
      r.2.mem ((c.tc : Thread nD τ).loc main_v16) = Cert.Spec.LOSS (m ((c.tc : Thread nD τ).loc main_arg0)) (m ((c.tc : Thread nD τ).loc main_arg1))
      ∧ r.2.mem ((c.tc : Thread nD τ).loc main_v20) = Cert.Spec.PREC (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1.trans (kernel_loss m c), (h c).2.2.2.trans (kernel_prec m c), (h c).1, (h c).2.1⟩)
    (run_main (F := Ideal) m ρ)

end Cert.KernelIdeal.Hand

end
-- ==== Proof.RefValue.lean ====
import proofs.«177782_j12764642804226_1_alg».proof.Proof.Gen.ReferenceIdeal.Run
import proofs.«177782_j12764642804226_1_alg».proof.Proof.Gen.ReferenceIdeal.Read
import proofs.«177782_j12764642804226_1_alg».proof.Proof.Spec

/-!
# The reference computes the specified loss and precision

The reference forms the full 4096 × 4096 matrices: the distance matrix (squared norms broadcast along rows and
columns, minus twice the Gram matrix, clamped below and rooted), the similarity matrix (label equality), the two
candidate matrices, their row maximum and row minimum, and the two means. Read entry by entry, each stage is the
specification's entry of the same name; the row extrema are folds over the column coordinate; the tail is the
specification's tail with the two operands of its maximum exchanged.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## Where each stage reads its operands -/

/-- Entry (i, j) of the row-broadcast squared norms reads row `i` of the embedding. -/
theorem ix_sq_row (i j : Fin 4096) (k : Fin 2048) :
    idx_main_v1 (idx_main_v2 (idx_main_v7 (ix2 i j))) k = ix2 i k :=
  funext fun a => Fin.ext (by match a with | ⟨0, _⟩ => rfl | ⟨1, _⟩ => rfl)

/-- Entry (i, j) of the column-broadcast (transposed) squared norms reads row `j`. -/
theorem ix_sq_col (i j : Fin 4096) (k : Fin 2048) :
    idx_main_v4 (idx_main_v5 (idx_main_v6 (idx_main_v8 (ix2 i j)))) k = ix2 j k :=
  funext fun a => Fin.ext (by match a with | ⟨0, _⟩ => rfl | ⟨1, _⟩ => rfl)

/-- The Gram matrix's left factor at (i, j), term `k`, is entry (i, k). -/
theorem ix_dot_l (i j : Fin 4096) (k : Fin 2048) : lidx_main_v11 (ix2 i j) k = ix2 i k :=
  funext fun a => Fin.ext (by match a with | ⟨0, _⟩ => rfl | ⟨1, _⟩ => rfl)

/-- Its right factor, through the transpose, is entry (j, k). -/
theorem ix_dot_r (i j : Fin 4096) (k : Fin 2048) : idx_main_v10 (ridx_main_v11 (ix2 i j) k) = ix2 j k :=
  funext fun a => Fin.ext (by match a with | ⟨0, _⟩ => rfl | ⟨1, _⟩ => rfl)

/-- The row-broadcast labels at (i, j) read label `i`. -/
theorem ix_lab_row (i j : Fin 4096) : idx_main_v17 (idx_main_v19 (ix2 i j)) = ix1 i :=
  funext fun a => Fin.ext (by match a with | ⟨0, _⟩ => rfl)

/-- The column-broadcast labels at (i, j) read label `j`. -/
theorem ix_lab_col (i j : Fin 4096) : idx_main_v18 (idx_main_v20 (ix2 i j)) = ix1 j :=
  funext fun a => Fin.ext (by match a with | ⟨0, _⟩ => rfl)

/-! ## The matrices, entry by entry -/

/-- The distance matrix at (i, j) is the specified distance of rows `i` and `j`. -/
theorem dist_eq (x0 : (⟨S4096x2048, .f32⟩ : BufTy).Contents (Elt Ideal)) (i j : Fin 4096) :
    val_main_v16 (F := Ideal) x0 (ix2 i j) = Cert.Spec.dist x0 i j := by
  rw [val_main_v16_apply, val_main_v15_apply, val_main_call0_v1_apply, val_main_call0_v0_apply, val_main_cst_2_apply,
    val_main_v14_apply, val_main_v9_apply, val_main_v7_apply, val_main_v2_apply, val_main_v1_apply, val_main_cst_apply,
    val_main_v8_apply, val_main_v6_apply, val_main_v5_apply, val_main_v4_apply, val_main_cst_0_apply,
    val_main_v13_apply, val_main_v12_apply, val_main_cst_1_apply, val_main_v11_apply]
  simp only [val_main_v0_apply, val_main_v3_apply, val_main_v10_apply, ix_sq_row, ix_sq_col, ix_dot_l, ix_dot_r]
  rfl

/-- The similarity matrix at (i, j) is the specified similarity of labels `i` and `j`. -/
theorem sim_eq (x1 : (⟨S4096, .i32⟩ : BufTy).Contents (Elt Ideal)) (i j : Fin 4096) :
    val_main_v22 (F := Ideal) x1 (ix2 i j) = Cert.Spec.sim x1 i j := by
  rw [val_main_v22_apply, val_main_v21_apply, val_main_v19_apply, val_main_v17_apply, val_main_v20_apply,
    val_main_v18_apply, ix_lab_row, ix_lab_col]
  exact Cert.Spec.sim_eq_uitofp x1 i j

/-- The positive-candidate matrix at (i, j). -/
theorem apCand_eq (x0 : (⟨S4096x2048, .f32⟩ : BufTy).Contents (Elt Ideal)) (x1 : (⟨S4096, .i32⟩ : BufTy).Contents (Elt Ideal))
    (i j : Fin 4096) : val_main_v27 (F := Ideal) x0 x1 (ix2 i j) = Cert.Spec.apCand x0 x1 i j := by
  rw [val_main_v27_apply, val_main_v26_apply, val_main_v25_apply, val_main_cst_4_apply, val_main_v24_apply,
    val_main_v23_apply, val_main_cst_3_apply, dist_eq, sim_eq]
  rfl

/-- The negative-candidate matrix at (i, j). -/
theorem anCand_eq (x0 : (⟨S4096x2048, .f32⟩ : BufTy).Contents (Elt Ideal)) (x1 : (⟨S4096, .i32⟩ : BufTy).Contents (Elt Ideal))
    (i j : Fin 4096) : val_main_v31 (F := Ideal) x0 x1 (ix2 i j) = Cert.Spec.anCand x0 x1 i j := by
  rw [val_main_v31_apply, val_main_v30_apply, val_main_v29_apply, val_main_cst_6_apply, dist_eq, sim_eq]
  rfl

/-! ## The row extrema -/

/-- Row `i` of the matrix with column `k` put back is entry (i, k). -/
theorem lift_row (h : S4096x4096.Reduces [1] S4096) (i : S4096.Idx) (k : Fin 4096) :
    h.lift i k = ix2 (i 0) k := by
  funext c; apply Fin.ext
  fin_cases c <;> rfl

/-- The row maximum of the positive candidates, from `−∞`, is the specified hardest positive. -/
theorem AP_eq (x0 : (⟨S4096x2048, .f32⟩ : BufTy).Contents (Elt Ideal)) (x1 : (⟨S4096, .i32⟩ : BufTy).Contents (Elt Ideal)) :
    val_main_v28 (F := Ideal) x0 x1 = Cert.Spec.AP x0 x1 := by
  funext i
  have h : S4096x4096.Reduces [1] S4096 := by decide
  unfold val_main_v28
  rw [Host.reduce_eq_fold_single FloatOps.maximumf _ _ reducesTo_S4096x4096_S4096_d1 h h_S_ i]
  have hf : (val_main_v27 (F := Ideal) x0 x1 ∘ h.lift i) = fun k : Fin 4096 => Cert.Spec.apCand x0 x1 (i 0) k :=
    funext fun k => (congrArg (val_main_v27 (F := Ideal) x0 x1) (lift_row h i k)).trans (apCand_eq x0 x1 (i 0) k)
  exact congrArg (fun f => Finset.fold max (Ideal.ofBits .f32 0xFF800000#32) f (Finset.univ : Finset (Fin 4096))) hf

/-- The row minimum of the negative candidates, from `+∞`, is the specified hardest negative. -/
theorem AN_eq (x0 : (⟨S4096x2048, .f32⟩ : BufTy).Contents (Elt Ideal)) (x1 : (⟨S4096, .i32⟩ : BufTy).Contents (Elt Ideal)) :
    val_main_v32 (F := Ideal) x0 x1 = Cert.Spec.AN x0 x1 := by
  funext i
  have h : S4096x4096.Reduces [1] S4096 := by decide
  unfold val_main_v32
  rw [Host.reduce_eq_fold_single FloatOps.minimumf _ _ reducesTo_S4096x4096_S4096_d1 h h_S_ i]
  have hf : (val_main_v31 (F := Ideal) x0 x1 ∘ h.lift i) = fun k : Fin 4096 => Cert.Spec.anCand x0 x1 (i 0) k :=
    funext fun k => (congrArg (val_main_v31 (F := Ideal) x0 x1) (lift_row h i k)).trans (anCand_eq x0 x1 (i 0) k)
  exact congrArg (fun f => Finset.fold min (Ideal.ofBits .f32 0x7F800000#32) f (Finset.univ : Finset (Fin 4096))) hf

/-! ## The two means -/

/-- The reference's loss is the specified one: its tail is the specification's with `max x 0` for `max 0 x`. -/
theorem loss_eq (x0 : (⟨S4096x2048, .f32⟩ : BufTy).Contents (Elt Ideal)) (x1 : (⟨S4096, .i32⟩ : BufTy).Contents (Elt Ideal)) :
    val_main_v38 (F := Ideal) x0 x1 = Cert.Spec.LOSS x0 x1 := by
  unfold Cert.Spec.LOSS
  rw [← Cert.Spec.lossOf_comm, ← AP_eq, ← AN_eq]
  rfl

/-- The reference's precision is the specified one. -/
theorem prec_eq (x0 : (⟨S4096x2048, .f32⟩ : BufTy).Contents (Elt Ideal)) (x1 : (⟨S4096, .i32⟩ : BufTy).Contents (Elt Ideal)) :
    val_main_v42 (F := Ideal) x0 x1 = Cert.Spec.PREC x0 x1 := by
  unfold Cert.Spec.PREC Cert.Spec.precOf
  rw [← AP_eq, ← AN_eq]
  rfl

/-! ## The run -/

/-- Every run of the reference ends with the specified loss and precision of its two arguments, which it leaves
    unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ Cert.ReferenceIdeal.τ).loc Cert.ReferenceIdeal.main_v38)
          = Cert.Spec.LOSS (m ((c.tc : Thread _ Cert.ReferenceIdeal.τ).loc Cert.ReferenceIdeal.main_arg0))
              (m ((c.tc : Thread _ Cert.ReferenceIdeal.τ).loc Cert.ReferenceIdeal.main_arg1))
        ∧ r.2.mem ((c.tc : Thread _ Cert.ReferenceIdeal.τ).loc Cert.ReferenceIdeal.main_v42)
          = Cert.Spec.PREC (m ((c.tc : Thread _ Cert.ReferenceIdeal.τ).loc Cert.ReferenceIdeal.main_arg0))
              (m ((c.tc : Thread _ Cert.ReferenceIdeal.τ).loc Cert.ReferenceIdeal.main_arg1))
        ∧ r.2.mem ((c.tc : Thread _ Cert.ReferenceIdeal.τ).loc Cert.ReferenceIdeal.main_arg0)
          = m ((c.tc : Thread _ Cert.ReferenceIdeal.τ).loc Cert.ReferenceIdeal.main_arg0)
        ∧ r.2.mem ((c.tc : Thread _ Cert.ReferenceIdeal.τ).loc Cert.ReferenceIdeal.main_arg1)
          = m ((c.tc : Thread _ Cert.ReferenceIdeal.τ).loc Cert.ReferenceIdeal.main_arg1)) :=
  (θ_run (Cert.ReferenceIdeal.defs (F := Ideal)) _ _).mono
    (fun _ h c => ⟨(h c).1.trans ((val_main_v38_eq _ _).trans (loss_eq _ _)),
      (h c).2.1.trans ((val_main_v42_eq _ _).trans (prec_eq _ _)), (h c).2.2.1, (h c).2.2.2⟩)
    (Cert.ReferenceIdeal.Value.run (F := Ideal) m ρ)

end Cert.ReferenceIdeal.RefValue

end
-- ==== Proof.lean ====
/-
  The certificate: a Pallas kernel for batch-hard triplet mining — the pairwise-distance matmul fused with the masked
  row maximum (hardest positive) and row minimum (hardest negative), tiled 4 × 4 with running accumulators over the
  column tiles — against its jnp reference, over the extended reals.

  Both programs end with the same two scalars, the specification's LOSS and PREC of the argument arrays: the
  reference by reading its host operations one at a time; the kernel because each row's four tile maxima, folded
  from −∞, are that row's maximum over all 4096 columns (likewise the minima from +∞), its per-entry candidates being
  the reference's, and its host tail the reference's up to the order of the arguments of one maximum. The frames:
  each kernel program runs its sixteen grid points to the end (the body stepped once per control case: reset,
  carry, write-out), its first two windows sharing one array half and half; the reference is host operations only.
  The idealization rewrote nothing, so `preserves` is trivial.
-/
import proofs.«177782_j12764642804226_1_alg».proof.Defs
import proofs.«177782_j12764642804226_1_alg».proof.Proof.Gen.Kernel
import proofs.«177782_j12764642804226_1_alg».proof.Proof.Gen.KernelIdeal
import proofs.«177782_j12764642804226_1_alg».proof.Proof.Gen.ReferenceIdeal
import proofs.«177782_j12764642804226_1_alg».proof.Proof.Gen.Pre_finite_inputs
import proofs.«177782_j12764642804226_1_alg».proof.Proof.K.Run
import proofs.«177782_j12764642804226_1_alg».proof.Proof.Value.Kernel
import proofs.«177782_j12764642804226_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.RefValue.run_spec m ρ)

/-- From memories agreeing on the arguments both programs end at the specification's two values of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, Cert.KernelIdeal.Hand.run_spec m ρ, ?_⟩
  refine (θ_run (Cert.ReferenceIdeal.defs (F := Ideal)) _ _).mono (fun _ h c => ?_) (Cert.ReferenceIdeal.RefValue.run_spec m' ρ')
  obtain ⟨h38, h42, h0, h1⟩ := h c
  refine ⟨h38.trans ?_, h42.trans ?_, h0, h1⟩
  · rw [(hagree c).1, (hagree c).2]
  · rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
